-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x1 .f32) (main_arg8 : FVec F S1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S256 .f32) (main_arg5 : FVec F S256x64 .f32) (main_arg6 : FVec F S64 .f32) (main_arg7 : FVec F S64x1 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8192x512 .f32) (main_arg1 : FVec F S512x256 .f32) (main_arg2 : FVec F S256 .f32) (main_arg3 : FVec F S256x256 .f32) (main_arg4 : FVec F S256 .f32) (main_arg5 : FVec F S256x64 .f32) (main_arg6 : FVec F S64 .f32) (main_arg7 : FVec F S64x1 .f32) (main_arg8 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x256 : Shape := ⟨2, ![1, 256]⟩
abbrev S_ : Shape := ⟨0, ![]⟩
abbrev S256x128 : Shape := ⟨2, ![256, 128]⟩
abbrev S128 : Shape := ⟨1, ![128]⟩
abbrev S1x128 : Shape := ⟨2, ![1, 128]⟩
abbrev S128x1 : Shape := ⟨2, ![128, 1]⟩
abbrev S16x1 : Shape := ⟨2, ![16, 1]⟩
abbrev S2048x512 : Shape := ⟨2, ![2048, 512]⟩
abbrev S8x1 : Shape := ⟨2, ![8, 1]⟩
abbrev S2048x256 : Shape := ⟨2, ![2048, 256]⟩
abbrev S2048x128 : Shape := ⟨2, ![2048, 128]⟩
abbrev S1x1 : Shape := ⟨2, ![1, 1]⟩

abbrev nBuf : Space → Nat
  | .hbm => 30
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x256, .f32⟩
  | .hbm, ⟨10, _⟩ => ⟨S1x256, .f32⟩
  | .hbm, ⟨11, _⟩ => ⟨S_, .i32⟩
  | .hbm, ⟨12, _⟩ => ⟨S_, .f32⟩
  | .hbm, ⟨13, _⟩ => ⟨S256x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128x1, .f32⟩
  | .hbm, ⟨21, _⟩ => ⟨S16x1, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x1, .f32⟩
  | .local _ .vmem, ⟨9, _⟩ => ⟨S8x1, .f32⟩
  | .local _ .vmem, ⟨10, _⟩ => ⟨S8x1, .f32⟩
  | .local _ .vmem, ⟨11, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v41 : BitVec 1 := Scalar.cmpi .eq arg1 c1_i32
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S256_S1x256 : S256.ShapeCasts S1x256
  pads_S256x64_S256x128_000_0640 : S256x64.Pads (![0, 0] : Fin 2 → Nat) ![0, 64] ![0, 0] S256x128
  h_S_ : 0 < S_.numel
  pads_S64_S128_0640 : S64.Pads (![0] : Fin 1 → Nat) ![64] ![0] S128
  shapeCasts_S128_S1x128 : S128.ShapeCasts S1x128
  pads_S64x1_S128x1_0640_000 : S64x1.Pads (![0, 0] : Fin 2 → Nat) ![64, 0] ![0, 0] S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S2048x128 : S1x128.Broadcasts S2048x128
  reduces_S2048x128_S128 : S2048x128.Reduces [0] S128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S1x1_S1x1 : S1x1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  slices_S16x1_S1x1_0_0 : S16x1.Slices ![0, 0] S1x1
  shapeCasts_S1x1_S_ : S1x1.ShapeCasts S_
  slices_S16x1_S1x1_8_0 : S16x1.Slices ![8, 0] S1x1
  shapeCasts_S1_S_ : S1.ShapeCasts S_
  shapeCasts_S_S1 : S_.ShapeCasts S1
  dot_S2048x512_S512x256_S2048x256_1_0_0_1_n_n_wf : DotDims.WF S2048x512 S512x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S16x1.size a
  hwx0_8 : ∀ i : grid0.Coords, EltTy.bits .f32 = 32 ∨ (Rect.block (s := S16x1) S8x1.size (cc0_transform_8 i) (hinb0_8 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S8x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x512 : Shape := ⟨2, ![8192, 512]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S8192x256 : Shape := ⟨2, ![8192, 256]⟩
abbrev S1x256 : Shape := ⟨2, ![1, 256]⟩
abbrev S_ : Shape := ⟨0, ![]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S8192x256, .f32⟩
  | .hbm, ⟨10, _⟩ => ⟨S1x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | .hbm, ⟨23, _⟩ => ⟨S8192x64, .f32⟩
  | .hbm, ⟨24, _⟩ => ⟨S1x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x64, .f32⟩
  | .hbm, ⟨37, _⟩ => ⟨S8192x64, .f32⟩
  | .hbm, ⟨38, _⟩ => ⟨S64x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .i1⟩
  | .hbm, ⟨44, _⟩ => ⟨S8192x8192, .i32⟩
  | .hbm, ⟨45, _⟩ => ⟨S8192x8192, .i32⟩
  | .hbm, ⟨46, _⟩ => ⟨S_, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S8192x8192, .i1⟩
  | .hbm, ⟨51, _⟩ => ⟨S8192x8192, .i1⟩
  | .hbm, ⟨52, _⟩ => ⟨S8192x8192, .i32⟩
  | .hbm, ⟨53, _⟩ => ⟨S_, .i32⟩
  | .hbm, ⟨54, _⟩ => ⟨S8192, .i32⟩
  | .hbm, ⟨55, _⟩ => ⟨S8192x8192, .f32⟩
  | .hbm, ⟨56, _⟩ => ⟨S_, .f32⟩
  | .hbm, ⟨57, _⟩ => ⟨S8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S8192x1, .f32⟩
  | .hbm, ⟨71, _⟩ => ⟨S8192x64, .f32⟩
  | .hbm, ⟨72, _⟩ => ⟨S8192x64, .f32⟩
  | .hbm, ⟨73, _⟩ => ⟨S_, .f32⟩
  | .hbm, ⟨74, _⟩ => ⟨S64, .f32⟩
  | .hbm, ⟨75, _⟩ => ⟨S1x64, .f32⟩
  | .hbm, ⟨76, _⟩ => ⟨S1x1, .f32⟩
  | .hbm, ⟨77, _⟩ => ⟨S1x1, .f32⟩
  | .hbm, ⟨78, _⟩ => ⟨S1x1, .f32⟩
  | .hbm, ⟨79, _⟩ => ⟨S1, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_1 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_c_3 : Ref sig .tc := ⟨.hbm, 58, rfl⟩
abbrev main_v36 : Ref sig .tc := ⟨.hbm, 59, rfl⟩
abbrev main_v37 : Ref sig .tc := ⟨.hbm, 60, rfl⟩
abbrev main_c_4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_call3_v0 : Ref sig .tc := ⟨.hbm, 67, rfl⟩
abbrev main_call3_v1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  natLt_1_32 : 1 < 32
  reducesTo_S8192x8192_S8192_d1 : S8192x8192.ReducesTo [1] S8192
  bcast_S_S8192 : S_.BroadcastsInDim S8192 (![] : Fin 0 → Fin S8192.rank)
  reducesTo_S8192x64_S64_d0 : S8192x64.ReducesTo [0] S64
  bcast_S1_S1x1_1 : S1.BroadcastsInDim S1x1 (![1] : Fin 1 → Fin S1x1.rank)
  shapeCasts_S1x1_S1 : S1x1.ShapeCasts S1
  dot_S8192x512_S512x256_S8192x256_1_0_0_1_n_n_wf : DotDims.WF S8192x512 S512x256 S8192x256 [1] [0] [0] [1] [] []
  dot_S8192x256_S256x256_S8192x256_1_0_0_1_n_n_wf : DotDims.WF S8192x256 S256x256 S8192x256 [1] [0] [0] [1] [] []
  dot_S8192x256_S256x64_S8192x64_1_0_0_1_n_n_wf : DotDims.WF S8192x256 S256x64 S8192x64 [1] [0] [0] [1] [] []
  dot_S8192x64_S64x8192_S8192x8192_1_0_0_1_n_n_wf : DotDims.WF S8192x64 S64x8192 S8192x8192 [1] [0] [0] [1] [] []
  dot_S1x64_S64x1_S1x1_1_0_0_1_n_n_wf : DotDims.WF S1x64 S64x1 S1x1 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.KernelPieces.lean ====
/-
  What one run of the kernel body leaves behind, as the body's own arithmetic. The body has two forms. At a core's
  first row tile it zeroes the accumulator, then adds the tile's column sums of the feature block to it. At the
  core's last row tile it adds that tile's column sums to what the tile before left, then contracts the accumulator
  with the padded weight column and fills the core's eight-row output slab with the one number. Each statement below
  says: the buffer contents the run found are the named arithmetic term (`k0_pay1`: accumulate the column sums;
  `k0_pay2`: contract and fill; `k0_pay3`: zeros; `k0_pay4`: the feature block) of the input blocks.
-/
import proofs.«414129_j65481071402742_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The offsets `![0, 0]` of a whole-buffer access are zero on both axes. -/
theorem off_zero : (![0, 0] : Fin 2 → Nat) = fun _ => 0 := by
  funext a; fin_cases a <;> rfl

variable (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S8x1 .f32) (harg10 : arg10.IsWhole) (arg11 : Memref sig .tc .vmem S1x128 .f32) (harg11 : arg11.IsWhole)
variable (x0 : Vec F S2048x512 .f32) (x1 : Vec F S512x256 .f32) (x2 : Vec F S1x256 .f32) (x3 : Vec F S256x256 .f32) (x4 : Vec F S1x256 .f32) (x5 : Vec F S256x128 .f32) (x6 : Vec F S1x128 .f32) (x7 : Vec F S128x1 .f32)

/-- First tile of a core: the accumulator ends at the tile's column sums added to zeros. -/
theorem scratch_first (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay1 (k0_pay4 x0 x1 x2 x3 x4 x5 x6) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1x128) off_zero]
  simp only [View.readAt_eq_ld, harg2.read_unread, harg3.read_unread, harg4.read_unread, harg5.read_unread, harg6.read_unread,
    harg7.read_unread, harg8.read_unread, View.ld_unit_zero (S := S2048x512) off_zero, View.ld_unit_zero (S := S512x256) off_zero,
    View.ld_unit_zero (S := S1x256) off_zero, View.ld_unit_zero (S := S256x256) off_zero, View.ld_unit_zero (S := S256x128) off_zero,
    View.ld_unit_zero (S := S1x128) off_zero, View.readCov_unit_zero (S := S1x128) _ off_zero]

/-- Last tile of a core: the accumulator ends at the tile's column sums added to what the tile before left (`xs0`). -/
theorem scratch_last (hc0 : ¬cond0_0 i) (hc1 : cond0_1 i) (xs0 : Vec F S1x128 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay4 x0 x1 x2 x3 x4 x5 x6) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero (S := S1x128) off_zero]
  simp only [View.readAt_eq_ld, harg2.read_unread, harg3.read_unread, harg4.read_unread, harg5.read_unread, harg6.read_unread,
    harg7.read_unread, harg8.read_unread, harg9.read_unread, harg11.read_unread, View.ld_unit_zero (S := S2048x512) off_zero,
    View.ld_unit_zero (S := S512x256) off_zero, View.ld_unit_zero (S := S1x256) off_zero, View.ld_unit_zero (S := S256x256) off_zero,
    View.ld_unit_zero (S := S256x128) off_zero, View.ld_unit_zero (S := S1x128) off_zero, View.ld_unit_zero (S := S128x1) off_zero,
    View.readCov_unit_zero (S := S1x128) _ off_zero]

/-- Last tile of a core: the output slab ends at the contraction of that accumulator with the padded weight column. -/
theorem slab_last (hc0 : ¬cond0_0 i) (hc1 : cond0_1 i) (xs0 : Vec F S1x128 .f32) :
    out0_B_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (k0_pay1 (k0_pay4 x0 x1 x2 x3 x4 x5 x6) xs0) x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero (S := S8x1) off_zero]
  simp only [View.readAt_eq_ld, harg2.read_unread, harg3.read_unread, harg4.read_unread, harg5.read_unread, harg6.read_unread,
    harg7.read_unread, harg8.read_unread, harg9.read_unread, harg11.read_unread, View.ld_unit_zero (S := S2048x512) off_zero,
    View.ld_unit_zero (S := S512x256) off_zero, View.ld_unit_zero (S := S1x256) off_zero, View.ld_unit_zero (S := S256x256) off_zero,
    View.ld_unit_zero (S := S256x128) off_zero, View.ld_unit_zero (S := S1x128) off_zero, View.ld_unit_zero (S := S128x1) off_zero,
    View.readCov_unit_zero (S := S1x128) _ off_zero]

end Cert.KernelIdeal.Pieces

end
-- ==== Proof.KernelPoints.lean ====
/-
  What the kernel's accumulator and output slab hold after each grid point, as arithmetic of the point's input
  blocks. The grid runs the two row tiles of a core one after the other. After a core's first tile the accumulator
  is that tile's column sums of its feature block added to zeros; after its last tile it is the last tile's column
  sums added to that, and the core's eight-row slab holds the accumulator contracted with the padded weight column,
  one number on all eight rows.
-/
import proofs.«414129_j65481071402742_3_alg».proof.Proof.KernelPieces

set_option maxRecDepth 16384

noncomputable section

namespace Cert.KernelIdeal.Points

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The feature block of grid point `t`: the body's three layers and the hyperbolic tangent of the point's blocks. -/
abbrev featBlk (c : Dev nD) (t : Fin cfg0.N) : FVec F S2048x128 .f32 :=
  k0_pay4 (iblk m c 0 t) (iblk m c 1 t) (iblk m c 2 t) (iblk m c 3 t) (iblk m c 4 t) (iblk m c 5 t) (iblk m c 6 t)

/-- After a core's first tile: that tile's column sums over zeros. -/
theorem acc_first (c : Dev nD) (t : Fin cfg0.N) (h0 : t.val % 2 = 0) (h1 : ¬t.val % 2 = 1) :
    (outsAt0 m c t.val t.isLt).2 = k0_pay1 (featBlk m c t) (k0_pay3 (F := F)) := by
  rw [outsAt0_A m c t h0 h1]
  dsimp only
  exact Pieces.scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))

/-- After a core's last tile: that tile's column sums over what the tile before left. -/
theorem acc_last (c : Dev nD) (t : Fin cfg0.N) (h0 : ¬t.val % 2 = 0) (h1 : t.val % 2 = 1) :
    (outsAt0 m c t.val t.isLt).2
      = k0_pay1 (featBlk m c t) (outsAt0 m c (t.val - 1) (Nat.lt_of_le_of_lt (Nat.sub_le _ _) t.isLt)).2 := by
  rw [outsAt0_B m c t h0 h1]
  dsimp only
  exact Pieces.scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr h1) _

/-- After a core's last tile: the slab is that accumulator contracted with the padded weight column. -/
theorem slab_last (c : Dev nD) (t : Fin cfg0.N) (h0 : ¬t.val % 2 = 0) (h1 : t.val % 2 = 1) :
    (outsAt0 m c t.val t.isLt).1
      = k0_pay2 (k0_pay1 (featBlk m c t) (outsAt0 m c (t.val - 1) (Nat.lt_of_le_of_lt (Nat.sub_le _ _) t.isLt)).2) (iblk m c 7 t) := by
  rw [outsAt0_B m c t h0 h1]
  dsimp only
  exact Pieces.slab_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr h1) _

/-- A core's accumulator after both of its tiles (`t'` the first, `t` the last). -/
abbrev coreAcc (c : Dev nD) (t' t : Fin cfg0.N) : FVec F S1x128 .f32 :=
  k0_pay1 (featBlk m c t) (k0_pay1 (featBlk m c t') (k0_pay3 (F := F)))

/-- The slab of the first core, written at point 1 over the accumulator of points 0 and 1. -/
theorem slab_core0 (c : Dev nD) :
    (outsAt0 m c t0_1.val t0_1.isLt).1 = k0_pay2 (coreAcc m c t0_0 t0_1) (iblk m c 7 t0_1) := by
  rw [slab_last m c t0_1 (by decide) (by decide)]
  exact congrArg (fun a => k0_pay2 (k0_pay1 (featBlk m c t0_1) a) (iblk m c 7 t0_1)) (acc_first m c t0_0 (by decide) (by decide))

/-- The slab of the second core, written at point 3 over the accumulator of points 2 and 3. -/
theorem slab_core1 (c : Dev nD) :
    (outsAt0 m c t0_3.val t0_3.isLt).1 = k0_pay2 (coreAcc m c t0_2 t0_3) (iblk m c 7 t0_3) := by
  rw [slab_last m c t0_3 (by decide) (by decide)]
  exact congrArg (fun a => k0_pay2 (k0_pay1 (featBlk m c t0_3) a) (iblk m c 7 t0_3)) (acc_first m c t0_2 (by decide) (by decide))

end Cert.KernelIdeal.Points

end
-- ==== Proof.KernelArray.lean ====
/-
  The [16, 1] array of partial results after the kernel's run. Only a core's last tile writes its slab back: point 1
  writes rows 0 to 7, point 3 rows 8 to 15, and a slab holds one number on all its rows. So the array ends holding the
  first core's number on rows 0 to 7 and the second core's on rows 8 to 15: each written-back slab is its block of that
  array, and the two blocks cover the sixteen rows.
-/
import proofs.«414129_j65481071402742_3_alg».proof.Proof.KernelPoints
import Idealize.ShloMosaic.Lib.ValueIdx

set_option maxRecDepth 16384

noncomputable section

namespace Cert.KernelIdeal.Slabs

open Cert.KernelIdeal Cert.KernelIdeal.Gen Cert.KernelIdeal.Points
open Idealize.ShloMosaic Idealize.ShloMosaic.TcCoe Idealize.SL.Sem Idealize.ShloMosaic.ValueIdx

variable {F : FTy → Type} [FloatOps F]
variable (m : (ℓ : Loc nD τ sig) → Buf (Elt F) ℓ)

/-- All eight rows of a filled slab hold its first entry: the slab is one [1, 1] value broadcast down the rows. -/
theorem slab_rows (a : Vec F S1x128 .f32) (b : Vec F S128x1 .f32) (y : S8x1.Idx) :
    k0_pay2 a b y = k0_pay2 a b (ix2 0 0) := by
  unfold k0_pay2
  exact (broadcastTo_apply _ _ y (ix2 0 0) (fun a => match a with | ⟨0, _⟩ => rfl | ⟨1, _⟩ => rfl)).trans
    (broadcastTo_apply _ _ (ix2 0 0) (ix2 0 0) (fun a => match a with | ⟨0, _⟩ => rfl | ⟨1, _⟩ => rfl)).symm

/-- The first core's number: its accumulator over points 0 and 1 contracted with the padded weight column. -/
abbrev part0 (c : Dev nD) : F .f32 := k0_pay2 (coreAcc m c t0_0 t0_1) (iblk m c 7 t0_1) (ix2 0 0)
/-- The second core's number, over points 2 and 3. -/
abbrev part1 (c : Dev nD) : F .f32 := k0_pay2 (coreAcc m c t0_2 t0_3) (iblk m c 7 t0_3) (ix2 0 0)

/-- The array of partial results: rows 0 to 7 the first core's number, rows 8 to 15 the second's. -/
def partials (c : Dev nD) : FVec F S16x1 .f32 := fun i => if (i 0).val < 8 then part0 m c else part1 m c

/-- The output window is written back exactly at the odd points (each core's last tile). -/
theorem flush_iff : ∀ t : Fin cfg0.N, (cfg0.win 8).flush t = true ↔ t.val % 2 = 1 :=
  (by decide +kernel : ∀ t : Fin grid0.N, _)

/-- The output block of point `t` is block `t / 2` along the rows, block 0 along the one column. -/
theorem idx_facts : ∀ t : Fin cfg0.N, win0_8.index t (0 : Fin 2) = t.val / 2 ∧ win0_8.index t (1 : Fin 2) = 0 :=
  (by decide +kernel : ∀ t : Fin grid0.N, _)

/-- WHAT A FLUSHING POINT WRITES BACK is its block of the array of partial results. -/
theorem flushed_eq (c : Dev nD) (t : Fin cfg0.N) (hf : (cfg0.win 8).flush t = true) :
    (dats m 0 c).flushed 8 t = ((cfg0.win 8).blk t).view.read (Elt F) (partials m c) := by
  have h1 : t.val % 2 = 1 := (flush_iff t).mp hf
  show (cfg0.win 8).cut (grid0.coords t) ((dats m 0 c).after 8 t) = _
  rw [after0_8]
  rcases fin_N0 t with rfl | rfl | rfl | rfl
  · exact absurd h1 (by decide)
  · obtain ⟨e0, e1⟩ := idx_facts t0_1
    rw [slab_core0]
    funext y
    show k0_pay2 _ _ y = partials m c (((cfg0.win 8).blk t0_1).view.emb y)
    rw [slab_rows]
    have hy : ((((cfg0.win 8).blk t0_1).view.emb y) 0).val < 8 := by
      show win0_8.index t0_1 (0 : Fin 2) * 8 + 1 * (y 0).val < 8
      have hy0 : (y 0).val < 8 := (y 0).isLt
      have ht : t0_1.val = 1 := rfl
      omega
    unfold partials
    rw [if_pos hy]
  · exact absurd h1 (by decide)
  · obtain ⟨e0, e1⟩ := idx_facts t0_3
    rw [slab_core1]
    funext y
    show k0_pay2 _ _ y = partials m c (((cfg0.win 8).blk t0_3).view.emb y)
    rw [slab_rows]
    have hy : ¬((((cfg0.win 8).blk t0_3).view.emb y) 0).val < 8 := by
      show ¬(win0_8.index t0_3 (0 : Fin 2) * 8 + 1 * (y 0).val < 8)
      have hy0 : (y 0).val < 8 := (y 0).isLt
      have ht : t0_3.val = 3 := rfl
      omega
    unfold partials
    rw [if_neg hy]

/-- An index of the array is in point `t`'s block iff each coordinate is in the block's range on its axis. -/
theorem mem_blk (t : Fin cfg0.N) (i : S16x1.Idx) :
    i ∈ ((cfg0.win 8).blk t).view.set ↔ ∀ a : Fin 2, win0_8.index t a * S8x1.size a ≤ (i a).val ∧ (i a).val < win0_8.index t a * S8x1.size a + S8x1.size a := by
  show i ∈ ((View.whole main_v6).slice (win0_8.rect t)).set ↔ _
  rw [View.set_slice_whole, Rect.mem_set_unit]
  exact Iff.rfl

/-- Every row of the array is under a flushing point's block: rows 0 to 7 under point 1's, rows 8 to 15 under point 3's. -/
theorem cover (i : S16x1.Idx) : ∃ t : Fin cfg0.N, (cfg0.win 8).flush t = true ∧ i ∈ ((cfg0.win 8).blk t).view.set := by
  have hi0 : (i 0).val < 16 := (i 0).isLt
  have hi1 : (i 1).val < 1 := (i 1).isLt
  by_cases h : (i 0).val < 8
  · obtain ⟨e0, e1⟩ := idx_facts t0_1
    have ht : t0_1.val = 1 := rfl
    refine ⟨t0_1, (flush_iff t0_1).mpr (by decide), (mem_blk t0_1 i).mpr fun a => ?_⟩
    match a with
    | ⟨0, _⟩ => show win0_8.index t0_1 (0 : Fin 2) * 8 ≤ (i 0).val ∧ (i 0).val < win0_8.index t0_1 (0 : Fin 2) * 8 + 8; omega
    | ⟨1, _⟩ => show win0_8.index t0_1 (1 : Fin 2) * 1 ≤ (i 1).val ∧ (i 1).val < win0_8.index t0_1 (1 : Fin 2) * 1 + 1; omega
  · obtain ⟨e0, e1⟩ := idx_facts t0_3
    have ht : t0_3.val = 3 := rfl
    refine ⟨t0_3, (flush_iff t0_3).mpr (by decide), (mem_blk t0_3 i).mpr fun a => ?_⟩
    match a with
    | ⟨0, _⟩ => show win0_8.index t0_3 (0 : Fin 2) * 8 ≤ (i 0).val ∧ (i 0).val < win0_8.index t0_3 (0 : Fin 2) * 8 + 8; omega
    | ⟨1, _⟩ => show win0_8.index t0_3 (1 : Fin 2) * 1 ≤ (i 1).val ∧ (i 1).val < win0_8.index t0_3 (1 : Fin 2) * 1 + 1; omega

/-- THE ARRAY after the run. -/
theorem final (c : Dev nD) : (dats m 0 c).arrAt 8 cfg0.N = partials m c :=
  (dats m 0 c).arrAt_eq_of_cover 8 (partials m c) (fun t hf => flushed_eq m c t hf) cover

end Cert.KernelIdeal.Slabs

end
-- ==== Proof.LibHostLine.lean ====
/- A straight line of host operations run against a list of known buffer contents.

   `Sat V L`: the valuation `V` holds every buffer listed in `L` at the contents listed beside it. Each builder of
   Lib/StableHlo.lean has a step lemma here: when `L` lists the operation's operands, and no listed buffer is the
   operation's result buffer, the valuation after the operation satisfies `L` extended by the result buffer at the
   operation's function of the operands' listed contents. Running the steps down a literal list of operations
   (`StableHlo.after`) therefore never composes the functions: every listed value is a name, and each step checks
   one defining equation. The goals have the shape `∀ V, Sat V L → Sat (after ops V) Lout`; a step lemma peels the
   first operation of `ops`, and `done` closes the empty line by picking `Lout` out of `L` by position. -/
import Idealize.ShloMosaic.Lib.StableHlo.Run
import Idealize.ShloMosaic.Lib.Pipeline.Frame

namespace HostLine

open Idealize.ShloMosaic Idealize.ShloMosaic.StableHlo Idealize.SL.Sem

variable {τ : Topo} {sig : RefSig} {Val : EltTy → Type}

/-- A TensorCore buffer together with contents of its type. -/
abbrev Fact (sig : RefSig) (Val : EltTy → Type) : Type := (b : Ref sig .tc) × b.ty.Contents Val

/-- The valuation holds every listed buffer at its listed contents. -/
def Sat (V : Valuation τ sig Val) (L : List (Fact sig Val)) : Prop :=
  ∀ p ∈ L, V (Proc.devRef (τ := τ) .tc p.1) = p.2

theorem Sat.nil (V : Valuation τ sig Val) : Sat V [] := fun _ hp => nomatch hp

theorem Sat.cons {V : Valuation τ sig Val} {L : List (Fact sig Val)} {b : Ref sig .tc} {v : b.ty.Contents Val}
    (hb : V (Proc.devRef (τ := τ) .tc b) = v) (h : Sat V L) : Sat V (⟨b, v⟩ :: L) := by
  intro p hp
  rcases List.mem_cons.1 hp with rfl | hp
  · exact hb
  · exact h p hp

/-- Reading a listed buffer by its position in the list. -/
theorem Sat.get {V : Valuation τ sig Val} {L : List (Fact sig Val)} (h : Sat V L) (i : Nat) {b : Ref sig .tc}
    {v : b.ty.Contents Val} (hi : L[i]? = some ⟨b, v⟩) : V (Proc.devRef (τ := τ) .tc b) = v :=
  h ⟨b, v⟩ (List.mem_of_getElem? hi)

/-- The empty line: what is asked for is picked out of what is known, by position. -/
theorem done {L Lout : List (Fact sig Val)} (idx : List Nat) (h : idx.filterMap (fun i => L[i]?) = Lout) :
    ∀ V : Valuation τ sig Val, Sat V L → Sat (after [] V) Lout := by
  intro V hV p hp
  subst h
  obtain ⟨i, _, hi⟩ := List.mem_filterMap.1 hp
  exact hV p (List.mem_of_getElem? hi)

/-- One operation, whatever its builder: its result buffer `y` is new to the list, it leaves `y` at `vy` from any
    valuation that satisfies the list, and it leaves every other TensorCore buffer alone. -/
theorem step {op : HloOp τ sig Val} {y : Ref sig .tc} {L Lout : List (Fact sig Val)} {rest : List (HloOp τ sig Val)}
    (vy : y.ty.Contents Val)
    (hres : ∀ V : Valuation τ sig Val, Sat V L → op.result V (Proc.devRef .tc y) = vy)
    (hne : ∀ (V : Valuation τ sig Val) (r : Ref sig .tc), r ≠ y → op.result V (Proc.devRef .tc r) = V (Proc.devRef .tc r))
    (hfr : (L.all fun p => decide (p.1 ≠ y)) = true)
    (k : ∀ V : Valuation τ sig Val, Sat V (⟨y, vy⟩ :: L) → Sat (after rest V) Lout) :
    ∀ V : Valuation τ sig Val, Sat V L → Sat (after (op :: rest) V) Lout := by
  intro V h
  rw [after_cons]
  refine k _ (Sat.cons (hres V h) ?_)
  intro p hp
  rw [hne V p.1 (of_decide_eq_true (List.all_eq_true.1 hfr p hp))]
  exact h p hp

section Builders

variable {L Lout : List (Fact sig Val)} {rest : List (HloOp τ sig Val)}

theorem step_nullary {y : Ref sig .tc} {v : y.ty.Contents Val} {hy}
    (vy : y.ty.Contents Val) (hv : vy = v) (hfr : (L.all fun p => decide (p.1 ≠ y)) = true)
    (k : ∀ V : Valuation τ sig Val, Sat V (⟨y, vy⟩ :: L) → Sat (after rest V) Lout) :
    ∀ V : Valuation τ sig Val, Sat V L → Sat (after (nullary y v hy :: rest) V) Lout :=
  step vy (fun V _ => (nullary_result y v hy V).trans hv.symm) (fun V _ hr => nullary_result_ne y v hy V hr) hfr k

theorem step_unary {x y : Ref sig .tc} {f : x.ty.Contents Val → y.ty.Contents Val} {hx hy}
    (i : Nat) (vx : x.ty.Contents Val) (vy : y.ty.Contents Val) (hi : L[i]? = some ⟨x, vx⟩) (hv : vy = f vx)
    (hfr : (L.all fun p => decide (p.1 ≠ y)) = true)
    (k : ∀ V : Valuation τ sig Val, Sat V (⟨y, vy⟩ :: L) → Sat (after rest V) Lout) :
    ∀ V : Valuation τ sig Val, Sat V L → Sat (after (unary x y f hx hy :: rest) V) Lout :=
  step vy (fun V h => by rw [unary_result, h.get i hi, hv]) (fun V _ hr => unary_result_ne x y f hx hy V hr) hfr k

theorem step_binary {a b y : Ref sig .tc} {f : a.ty.Contents Val → b.ty.Contents Val → y.ty.Contents Val} {ha hb hy}
    (i j : Nat) (va : a.ty.Contents Val) (vb : b.ty.Contents Val) (vy : y.ty.Contents Val)
    (hi : L[i]? = some ⟨a, va⟩) (hj : L[j]? = some ⟨b, vb⟩) (hv : vy = f va vb)
    (hfr : (L.all fun p => decide (p.1 ≠ y)) = true)
    (k : ∀ V : Valuation τ sig Val, Sat V (⟨y, vy⟩ :: L) → Sat (after rest V) Lout) :
    ∀ V : Valuation τ sig Val, Sat V L → Sat (after (binary a b y f ha hb hy :: rest) V) Lout :=
  step vy (fun V h => by rw [binary_result, h.get i hi, h.get j hj, hv])
    (fun V _ hr => binary_result_ne a b y f ha hb hy V hr) hfr k

theorem step_reshape {x y : Ref sig .tc} {he : x.ty.elt = y.ty.elt} {hn : x.ty.shape.ShapeCasts y.ty.shape} {hx hy}
    (i : Nat) (vx : x.ty.Contents Val) (vy : y.ty.Contents Val) (hi : L[i]? = some ⟨x, vx⟩)
    (hv : vy = fun i => he ▸ shapeCast y.ty.shape vx hn i)
    (hfr : (L.all fun p => decide (p.1 ≠ y)) = true)
    (k : ∀ V : Valuation τ sig Val, Sat V (⟨y, vy⟩ :: L) → Sat (after rest V) Lout) :
    ∀ V : Valuation τ sig Val, Sat V L → Sat (after (reshape x y he hn hx hy :: rest) V) Lout :=
  step vy (fun V h => by rw [reshape_result, h.get i hi, hv])
    (fun V _ hr => reshape_result_ne x y he hn hx hy V hr) hfr k

/-- An operation of any number of operands: its value is read under an arbitrary valuation that satisfies the list. -/
theorem step_nary {n : Nat} {xs : Fin n → Ref sig .tc} {y : Ref sig .tc}
    {f : ((k : Fin n) → (xs k).ty.Contents Val) → y.ty.Contents Val} {hxs hy}
    (vy : y.ty.Contents Val)
    (hv : ∀ V : Valuation τ sig Val, Sat V L → f (fun k => V (Proc.devRef .tc (xs k))) = vy)
    (hfr : (L.all fun p => decide (p.1 ≠ y)) = true)
    (k : ∀ V : Valuation τ sig Val, Sat V (⟨y, vy⟩ :: L) → Sat (after rest V) Lout) :
    ∀ V : Valuation τ sig Val, Sat V L → Sat (after (nary xs y f hxs hy :: rest) V) Lout :=
  step vy (fun V h => (nary_result xs y f hxs hy V).trans (hv V h))
    (fun V _ hr => nary_result_ne (y := y) xs f hxs hy V hr) hfr k

end Builders

end HostLine
-- ==== Proof.LibHostLine3.lean ====
/- Steps of a host line (LibHostLine.lean) for the builders that file has no step for: an operation of three operands
   (`ternary`: a select, a scatter-add), and the typed-reference forms (`TRef.nullary`, `TRef.unary`, `TRef.binary`,
   `TRef.ternary`) in which a module-local function's body is stated, and which a call of that function therefore leaves
   in its caller's line once the body is unfolded at the call site; and the join of two stretches of a line (`line_append`).

   A typed reference `x : TRef sig T` carries its buffer `x.ref` and the equation `x.ty_eq : x.ref.ty = T`; its operation
   reads and writes the buffers through the transports `x.ofBuf` / `x.toBuf` along that equation. The steps below state
   the listed contents of an operand as `x.toBuf vx` for a `vx` at the value's own type `T`, and the result as
   `y.toBuf (f vx)`: the two transports of an operand cancel (`ofBuf_toBuf`), whatever the equation is. At a literal
   reference, whose equation is `rfl`, `x.toBuf vx` is `vx` by computation, so a use site lists plain contents. -/
import proofs.«414129_j65481071402742_3_alg».proof.Proof.LibHostLine

namespace HostLine

open Idealize.ShloMosaic Idealize.ShloMosaic.StableHlo Idealize.SL.Sem

variable {τ : Topo} {sig : RefSig} {Val : EltTy → Type}

/-- Transporting contents to a typed reference's buffer type and back is the identity. -/
theorem ofBuf_toBuf {T : BufTy} (x : TRef sig T) (v : T.Contents Val) : x.ofBuf (x.toBuf v) = v := by
  obtain ⟨ref, ty_eq, on_device, unscoped⟩ := x
  subst ty_eq
  rfl

/-- Two stretches in a row: what the first ends holding is what the second starts from. -/
theorem line_append {l₁ l₂ : List (HloOp τ sig Val)} {L M N : List (Fact sig Val)}
    (h₁ : ∀ V : Valuation τ sig Val, Sat V L → Sat (after l₁ V) M)
    (h₂ : ∀ V : Valuation τ sig Val, Sat V M → Sat (after l₂ V) N) :
    ∀ V : Valuation τ sig Val, Sat V L → Sat (after (l₁ ++ l₂) V) N := fun V h => by
  rw [StableHlo.after_append]
  exact h₂ _ (h₁ V h)

section Builders

variable {L Lout : List (Fact sig Val)} {rest : List (HloOp τ sig Val)}

/-- An operation of three operands: the list holds each operand (by position), the result buffer is new to the list,
    and the listed result is the operation's function of the three listed contents. -/
theorem step_ternary {c a b y : Ref sig .tc}
    {f : c.ty.Contents Val → a.ty.Contents Val → b.ty.Contents Val → y.ty.Contents Val} {hc ha hb hy}
    (i j l : Nat) (vc : c.ty.Contents Val) (va : a.ty.Contents Val) (vb : b.ty.Contents Val) (vy : y.ty.Contents Val)
    (hi : L[i]? = some ⟨c, vc⟩) (hj : L[j]? = some ⟨a, va⟩) (hl : L[l]? = some ⟨b, vb⟩) (hv : vy = f vc va vb)
    (hfr : (L.all fun p => decide (p.1 ≠ y)) = true)
    (k : ∀ V : Valuation τ sig Val, Sat V (⟨y, vy⟩ :: L) → Sat (after rest V) Lout) :
    ∀ V : Valuation τ sig Val, Sat V L → Sat (after (ternary c a b y f hc ha hb hy :: rest) V) Lout :=
  step vy (fun V h => by rw [ternary_result, h.get i hi, h.get j hj, h.get l hl, hv])
    (fun V _ hr => ternary_result_ne (a := a) (b := b) (c := c) (y := y) f hc ha hb hy V hr) hfr k

variable {Tx Ta Tb Tc Ty : BufTy}

/-- A typed-reference operation of no operand. -/
theorem step_tnullary {y : TRef sig Ty} {v : Ty.Contents Val}
    (vy : y.ref.ty.Contents Val) (hv : vy = y.toBuf v) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.nullary y v :: rest) V) Lout :=
  step_nullary vy hv hfr k

/-- A typed-reference operation of one operand. -/
theorem step_tunary {x : TRef sig Tx} {y : TRef sig Ty} {f : Tx.Contents Val → Ty.Contents Val}
    (i : Nat) (vx : Tx.Contents Val) (vy : y.ref.ty.Contents Val) (hi : L[i]? = some ⟨x.ref, x.toBuf vx⟩)
    (hv : vy = y.toBuf (f vx)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.unary x y f :: rest) V) Lout :=
  step_unary i (x.toBuf vx) vy hi
    (hv.trans (congrArg (fun t => y.toBuf (f t)) (ofBuf_toBuf x vx).symm)) hfr k

/-- A typed-reference operation of two operands. -/
theorem step_tbinary {a : TRef sig Ta} {b : TRef sig Tb} {y : TRef sig Ty}
    {f : Ta.Contents Val → Tb.Contents Val → Ty.Contents Val}
    (i j : Nat) (va : Ta.Contents Val) (vb : Tb.Contents Val) (vy : y.ref.ty.Contents Val)
    (hi : L[i]? = some ⟨a.ref, a.toBuf va⟩) (hj : L[j]? = some ⟨b.ref, b.toBuf vb⟩)
    (hv : vy = y.toBuf (f va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.binary a b y f :: rest) V) Lout :=
  step_binary i j (a.toBuf va) (b.toBuf vb) vy hi hj
    (hv.trans (congrArg₂ (fun s t => y.toBuf (f s t)) (ofBuf_toBuf a va).symm (ofBuf_toBuf b vb).symm)) hfr k

/-- A typed-reference operation of three operands (a module-local `select`). -/
theorem step_tternary {c : TRef sig Tc} {a : TRef sig Ta} {b : TRef sig Tb} {y : TRef sig Ty}
    {f : Tc.Contents Val → Ta.Contents Val → Tb.Contents Val → Ty.Contents Val}
    (i j l : Nat) (vc : Tc.Contents Val) (va : Ta.Contents Val) (vb : Tb.Contents Val) (vy : y.ref.ty.Contents Val)
    (hi : L[i]? = some ⟨c.ref, c.toBuf vc⟩) (hj : L[j]? = some ⟨a.ref, a.toBuf va⟩)
    (hl : L[l]? = some ⟨b.ref, b.toBuf vb⟩)
    (hv : vy = y.toBuf (f vc va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.ternary c a b y f :: rest) V) Lout :=
  step_ternary i j l (c.toBuf vc) (a.toBuf va) (b.toBuf vb) vy hi hj hl
    (by rw [hv, ofBuf_toBuf, ofBuf_toBuf, ofBuf_toBuf]) hfr k

end Builders

end HostLine
-- ==== Proof.KernelHost.lean ====
/-
  The host operations around the kernel's region. Before it: the two bias vectors are reshaped to rows, and the third
  layer's weight table, its bias and the final weight column are padded with zeros from 64 to 128 lanes. After it: row 0
  and row 8 of the [16, 1] array of partial results are taken, added, and the final bias is added. Walking each stretch
  with a list of "this buffer holds this value" facts names what each window's array holds when the region starts, and
  what the result buffer holds at the end: the two cores' numbers plus the bias.
-/
import proofs.«414129_j65481071402742_3_alg».proof.Proof.KernelArray
import proofs.«414129_j65481071402742_3_alg».proof.Proof.LibHostLine3

set_option maxRecDepth 16384

noncomputable section

namespace Cert.KernelIdeal.HostSide

open Cert.KernelIdeal Cert.KernelIdeal.Gen Cert.KernelIdeal.Slabs
open Idealize.ShloMosaic Idealize.ShloMosaic.TcCoe Idealize.SL.Sem Idealize.ShloMosaic.StableHlo

variable {F : FTy → Type} [FloatOps F]

/-! ## Before the region -/

/-- A length-256 bias vector as a [1, 256] row. -/
abbrev biasRow (x : (⟨S256, .f32⟩ : BufTy).Contents (Elt F)) : (⟨S1x256, .f32⟩ : BufTy).Contents (Elt F) :=
  shapeCast S1x256 x shapeCasts_S256_S1x256
/-- The integer zero the pads are given. -/
abbrev zeroWord : (⟨S_, .i32⟩ : BufTy).Contents (Elt F) := constantI S_ 32 0#32
/-- The pad value: the integer zero converted to a float. -/
abbrev padValue : (⟨S_, .f32⟩ : BufTy).Contents (Elt F) := sitofp (F := F) .f32 (constantI S_ 32 0#32)
/-- The third layer's weights padded from 64 to 128 columns. -/
abbrev wqPad (x : (⟨S256x64, .f32⟩ : BufTy).Contents (Elt F)) : (⟨S256x128, .f32⟩ : BufTy).Contents (Elt F) :=
  pad S256x128 ![0, 0] ![0, 64] ![0, 0] x (padValue (F := F)) pads_S256x64_S256x128_000_0640 h_S_
/-- The third layer's bias padded from 64 to 128 entries. -/
abbrev bqPad (x : (⟨S64, .f32⟩ : BufTy).Contents (Elt F)) : (⟨S128, .f32⟩ : BufTy).Contents (Elt F) :=
  pad S128 ![0] ![64] ![0] x (padValue (F := F)) pads_S64_S128_0640 h_S_
/-- That padded bias as a [1, 128] row. -/
abbrev bqRow (x : (⟨S64, .f32⟩ : BufTy).Contents (Elt F)) : (⟨S1x128, .f32⟩ : BufTy).Contents (Elt F) :=
  shapeCast S1x128 (bqPad x) shapeCasts_S128_S1x128
/-- The final weight column padded from 64 to 128 rows. -/
abbrev whPad (x : (⟨S64x1, .f32⟩ : BufTy).Contents (Elt F)) : (⟨S128x1, .f32⟩ : BufTy).Contents (Elt F) :=
  pad S128x1 ![0, 0] ![64, 0] ![0, 0] x (padValue (F := F)) pads_S64x1_S128x1_0640_000 h_S_

section Before
variable (x2 : (⟨S256, .f32⟩ : BufTy).Contents (Elt F)) (x4 : (⟨S256, .f32⟩ : BufTy).Contents (Elt F))
  (x5 : (⟨S256x64, .f32⟩ : BufTy).Contents (Elt F)) (x6 : (⟨S64, .f32⟩ : BufTy).Contents (Elt F))
  (x7 : (⟨S64x1, .f32⟩ : BufTy).Contents (Elt F))

/-- The twelve operations before the region, from any valuation holding the five arguments they read. -/
theorem before_line : ∀ V : Valuation τ sig (Elt F),
    HostLine.Sat V ([⟨main_arg2, x2⟩, ⟨main_arg4, x4⟩, ⟨main_arg5, x5⟩, ⟨main_arg6, x6⟩, ⟨main_arg7, x7⟩] : List (HostLine.Fact sig (Elt F))) →
    HostLine.Sat (after (List.flatten [hostOps0, hostOps0_1, hostOps0_2, hostOps0_3, hostOps0_4, hostOps0_5]) V)
      ([⟨main_v0, biasRow x2⟩, ⟨main_v1, biasRow x4⟩, ⟨main_v2, wqPad x5⟩, ⟨main_v4, bqRow x6⟩, ⟨main_v5, whPad x7⟩] : List (HostLine.Fact sig (Elt F))) := by
  simp only [hostOps0, hostOps0_1, hostOps0_2, hostOps0_3, hostOps0_4, hostOps0_5, List.flatten_cons, List.flatten_nil, List.append_nil,
    List.cons_append, List.nil_append]
  refine HostLine.step_reshape 0 x2 (biasRow x2) rfl rfl rfl ?_
  refine HostLine.step_reshape 2 x4 (biasRow x4) rfl rfl rfl ?_
  refine HostLine.step_nullary (zeroWord (F := F)) rfl rfl ?_
  refine HostLine.step_tunary 0 (zeroWord (F := F)) (padValue (F := F)) rfl rfl rfl ?_
  refine HostLine.step_tbinary 6 0 x5 (padValue (F := F)) (wqPad x5) rfl rfl rfl rfl ?_
  refine HostLine.step_nullary (zeroWord (F := F)) rfl rfl ?_
  refine HostLine.step_tunary 0 (zeroWord (F := F)) (padValue (F := F)) rfl rfl rfl ?_
  refine HostLine.step_tbinary 10 0 x6 (padValue (F := F)) (bqPad x6) rfl rfl rfl rfl ?_
  refine HostLine.step_reshape 0 (bqPad x6) (bqRow x6) rfl rfl rfl ?_
  refine HostLine.step_nullary (zeroWord (F := F)) rfl rfl ?_
  refine HostLine.step_tunary 0 (zeroWord (F := F)) (padValue (F := F)) rfl rfl rfl ?_
  refine HostLine.step_tbinary 15 0 x7 (padValue (F := F)) (whPad x7) rfl rfl rfl rfl ?_
  exact HostLine.done [11, 10, 7, 3, 0] rfl

end Before

variable (m : (ℓ : Loc nD τ sig) → Buf (Elt F) ℓ)

/-- The launch contents hold the five arguments the operations before the region read. -/
theorem launch_sat (c : Dev nD) : HostLine.Sat (fun b => m (c, b))
    ([⟨main_arg2, m ((c : Thread nD τ).loc main_arg2)⟩, ⟨main_arg4, m ((c : Thread nD τ).loc main_arg4)⟩,
      ⟨main_arg5, m ((c : Thread nD τ).loc main_arg5)⟩, ⟨main_arg6, m ((c : Thread nD τ).loc main_arg6)⟩,
      ⟨main_arg7, m ((c : Thread nD τ).loc main_arg7)⟩] : List (HostLine.Fact sig (Elt F))) := by
  intro p hp
  simp only [List.mem_cons, List.mem_nil_iff, or_false] at hp
  rcases hp with rfl | rfl | rfl | rfl | rfl <;> rfl

/-- What the region finds in the arrays the host wrote for it. -/
theorem entry_sat (c : Dev nD) : HostLine.Sat (V0 m c)
    ([⟨main_v0, biasRow (m ((c : Thread nD τ).loc main_arg2))⟩, ⟨main_v1, biasRow (m ((c : Thread nD τ).loc main_arg4))⟩,
      ⟨main_v2, wqPad (m ((c : Thread nD τ).loc main_arg5))⟩, ⟨main_v4, bqRow (m ((c : Thread nD τ).loc main_arg6))⟩,
      ⟨main_v5, whPad (m ((c : Thread nD τ).loc main_arg7))⟩] : List (HostLine.Fact sig (Elt F))) :=
  before_line _ _ _ _ _ _ (launch_sat m c)

theorem V_b1 (c : Dev nD) : V m c main_v0 = biasRow (m ((c : Thread nD τ).loc main_arg2)) :=
  (entry_sat m c).get 0 rfl
theorem V_b2 (c : Dev nD) : V m c main_v1 = biasRow (m ((c : Thread nD τ).loc main_arg4)) :=
  (entry_sat m c).get 1 rfl
theorem V_wq (c : Dev nD) : V m c main_v2 = wqPad (m ((c : Thread nD τ).loc main_arg5)) :=
  (entry_sat m c).get 2 rfl
theorem V_bq (c : Dev nD) : V m c main_v4 = bqRow (m ((c : Thread nD τ).loc main_arg6)) :=
  (entry_sat m c).get 3 rfl
theorem V_wh (c : Dev nD) : V m c main_v5 = whPad (m ((c : Thread nD τ).loc main_arg7)) :=
  (entry_sat m c).get 4 rfl

/-! ## After the region -/

/-- The result of the eight operations after the region, of the array of partial results `P` and the final bias `b`:
    entry [0, 0] plus entry [8, 0] plus the bias, as a length-1 vector. -/
abbrev total (P : (⟨S16x1, .f32⟩ : BufTy).Contents (Elt F)) (b : (⟨S1, .f32⟩ : BufTy).Contents (Elt F)) :
    (⟨S1, .f32⟩ : BufTy).Contents (Elt F) :=
  shapeCast S1 (addf (addf (shapeCast S_ (extractStridedSlice S1x1 ![0, 0] P slices_S16x1_S1x1_0_0) shapeCasts_S1x1_S_)
      (shapeCast S_ (extractStridedSlice S1x1 ![8, 0] P slices_S16x1_S1x1_8_0) shapeCasts_S1x1_S_))
    (shapeCast S_ b shapeCasts_S1_S_)) shapeCasts_S_S1

section After
variable (P : (⟨S16x1, .f32⟩ : BufTy).Contents (Elt F)) (b : (⟨S1, .f32⟩ : BufTy).Contents (Elt F))

/-- The eight operations after the region, from any valuation holding the array of partial results and the final bias. -/
theorem after_line : ∀ V : Valuation τ sig (Elt F),
    HostLine.Sat V ([⟨main_v6, P⟩, ⟨main_arg8, b⟩] : List (HostLine.Fact sig (Elt F))) →
    HostLine.Sat (after (hostOps1 (F := F)) V) ([⟨main_v14, total P b⟩] : List (HostLine.Fact sig (Elt F))) := by
  refine HostLine.step_unary 0 P (extractStridedSlice S1x1 ![0, 0] P slices_S16x1_S1x1_0_0) rfl rfl rfl ?_
  refine HostLine.step_reshape 0 (extractStridedSlice S1x1 ![0, 0] P slices_S16x1_S1x1_0_0)
    (shapeCast S_ (extractStridedSlice S1x1 ![0, 0] P slices_S16x1_S1x1_0_0) shapeCasts_S1x1_S_) rfl rfl rfl ?_
  refine HostLine.step_unary 2 P (extractStridedSlice S1x1 ![8, 0] P slices_S16x1_S1x1_8_0) rfl rfl rfl ?_
  refine HostLine.step_reshape 0 (extractStridedSlice S1x1 ![8, 0] P slices_S16x1_S1x1_8_0)
    (shapeCast S_ (extractStridedSlice S1x1 ![8, 0] P slices_S16x1_S1x1_8_0) shapeCasts_S1x1_S_) rfl rfl rfl ?_
  refine HostLine.step_binary 2 0 (shapeCast S_ (extractStridedSlice S1x1 ![0, 0] P slices_S16x1_S1x1_0_0) shapeCasts_S1x1_S_)
    (shapeCast S_ (extractStridedSlice S1x1 ![8, 0] P slices_S16x1_S1x1_8_0) shapeCasts_S1x1_S_)
    (addf (shapeCast S_ (extractStridedSlice S1x1 ![0, 0] P slices_S16x1_S1x1_0_0) shapeCasts_S1x1_S_)
      (shapeCast S_ (extractStridedSlice S1x1 ![8, 0] P slices_S16x1_S1x1_8_0) shapeCasts_S1x1_S_)) rfl rfl rfl rfl ?_
  refine HostLine.step_reshape 6 b (shapeCast S_ b shapeCasts_S1_S_) rfl rfl rfl ?_
  refine HostLine.step_binary 1 0 (addf (shapeCast S_ (extractStridedSlice S1x1 ![0, 0] P slices_S16x1_S1x1_0_0) shapeCasts_S1x1_S_)
      (shapeCast S_ (extractStridedSlice S1x1 ![8, 0] P slices_S16x1_S1x1_8_0) shapeCasts_S1x1_S_))
    (shapeCast S_ b shapeCasts_S1_S_)
    (addf (addf (shapeCast S_ (extractStridedSlice S1x1 ![0, 0] P slices_S16x1_S1x1_0_0) shapeCasts_S1x1_S_)
      (shapeCast S_ (extractStridedSlice S1x1 ![8, 0] P slices_S16x1_S1x1_8_0) shapeCasts_S1x1_S_)) (shapeCast S_ b shapeCasts_S1_S_))
    rfl rfl rfl rfl ?_
  refine HostLine.step_reshape 0 (addf (addf (shapeCast S_ (extractStridedSlice S1x1 ![0, 0] P slices_S16x1_S1x1_0_0) shapeCasts_S1x1_S_)
      (shapeCast S_ (extractStridedSlice S1x1 ![8, 0] P slices_S16x1_S1x1_8_0) shapeCasts_S1x1_S_)) (shapeCast S_ b shapeCasts_S1_S_))
    (total P b) rfl rfl rfl ?_
  exact HostLine.done [0] rfl

end After

/-- When the region ends, the array of partial results and the final bias are where the last operations read them. -/
theorem exit_sat (c : Dev nD) :
    HostLine.Sat (Pipeline.withArrays spec0 c (V0 m c) fun w => (dats m 0 c).arrAt w cfg0.N)
      ([⟨main_v6, partials m c⟩, ⟨main_arg8, m ((c : Thread nD τ).loc main_arg8)⟩] : List (HostLine.Fact sig (Elt F))) := by
  refine HostLine.Sat.cons ?_ (HostLine.Sat.cons ?_ (HostLine.Sat.nil _))
  · exact (Pipeline.withArrays_arr spec0 launch0.win.arr_inj c _ _ 8).trans (Slabs.final m c)
  · exact (Pipeline.withArrays_of_ne spec0 c _ _ main_arg8 (by decide)).trans (V_main_arg8 m c)

/-- THE KERNEL'S RUN, with its result named: every weakly fair execution terminates with the result buffer at the two
    cores' numbers plus the final bias, and the arguments unchanged. -/
theorem run (ρ : Dev nD → PrngReg) :
    θ_run defs (onTc (τ := τ) (main (F := F))) ⟨m, fun _ => 0, ρ⟩ (fun r => ∀ c : Dev nD,
      r.2.mem ((c.tc : Thread nD τ).loc main_v14) = total (partials m c) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v14 (Pipeline.mem_restRefs_of main_v14 (by decide) (by decide))).trans
        ((after_line _ _ _ (exit_sat m c)).get 0 rfl),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.HostSide

end
-- ==== Proof.KernelBlocks.lean ====
/-
  The kernel's input blocks read at one entry, as entries of the argument arrays. The first window cuts the
  [8192, 512] state table into four blocks of 2048 rows, one per grid point: row r of point t's block is row
  2048 t + r. Every other window is a whole array at every point: the two weight tables as they are; the two bias
  vectors as [1, 256] rows; the third layer's table, its bias and the final weight column padded with zeros from 64 to
  128 lanes, which read the unpadded array on lanes 0 to 63 and the pad value, zero, on lanes 64 to 127.
-/
import proofs.«414129_j65481071402742_3_alg».proof.Proof.KernelHost
import Idealize.ShloMosaic.Lib.KernelVsHost

set_option maxRecDepth 16384

noncomputable section

namespace Cert.KernelIdeal.Blocks

open Cert.KernelIdeal Cert.KernelIdeal.Gen Cert.KernelIdeal.HostSide
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The state window's block index is the grid point's number on the rows and 0 on the columns. -/
theorem idx_state : ∀ t : Fin cfg0.N, win0_0.index t (0 : Fin 2) = t.val ∧ win0_0.index t (1 : Fin 2) = 0 :=
  (by decide +kernel : ∀ t : Fin grid0.N, _)

/-- Every other input window's block index is 0 on both axes at every point. -/
theorem idx_whole : ∀ t : Fin cfg0.N,
    (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Row `r` of point `t`'s state block is row `2048 t + r` of the state table. -/
theorem state_blk (c : Dev nD) (t : Fin cfg0.N) (r : Fin 2048) (i : Fin 512) :
    iblk m c 0 t (ix2 r i)
      = m ((c : Thread nD τ).loc main_arg0) (ix2 (finProdFinEquiv ((⟨t.val, lt_of_lt_of_eq t.isLt N_0⟩ : Fin 4), r)) i) := by
  obtain ⟨e0, e1⟩ := idx_state t
  rw [← V_main_arg0 m c]
  show V m c main_arg0 (((cfg0.win 0).blk t).view.emb (ix2 r i)) = V m c main_arg0 _
  refine congrArg (V m c main_arg0) (funext fun a => Fin.ext ?_)
  match a with
  | ⟨0, _⟩ => show win0_0.index t (0 : Fin 2) * 2048 + 1 * r.val = r.val + 2048 * t.val; omega
  | ⟨1, _⟩ => show win0_0.index t (1 : Fin 2) * 512 + 1 * i.val = i.val; omega

/-- The first layer's weights. -/
theorem w1_blk (c : Dev nD) (t : Fin cfg0.N) (i : Fin 512) (j : Fin 256) :
    iblk m c 1 t (ix2 i j) = m ((c : Thread nD τ).loc main_arg1) (ix2 i j) := by
  obtain ⟨e0, e1⟩ := (idx_whole t).1
  rw [← V_main_arg1 m c]
  show V m c main_arg1 (((cfg0.win 1).blk t).view.emb (ix2 i j)) = V m c main_arg1 _
  refine congrArg (V m c main_arg1) (funext fun a => Fin.ext ?_)
  match a with
  | ⟨0, _⟩ => show win0_1.index t (0 : Fin 2) * 512 + 1 * i.val = i.val; omega
  | ⟨1, _⟩ => show win0_1.index t (1 : Fin 2) * 256 + 1 * j.val = j.val; omega

/-- The first layer's bias, as a row. -/
theorem b1_blk (c : Dev nD) (t : Fin cfg0.N) (j : Fin 256) :
    iblk m c 2 t (ix2 0 j) = m ((c : Thread nD τ).loc main_arg2) (ix1 j) := by
  obtain ⟨e0, e1⟩ := (idx_whole t).2.1
  have hv : iblk m c 2 t (ix2 0 j) = V m c main_v0 (ix2 0 j) := by
    show V m c main_v0 (((cfg0.win 2).blk t).view.emb (ix2 0 j)) = V m c main_v0 _
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 256 + 1 * j.val = j.val; omega
  rw [hv, V_b1 m c]
  exact shapeCast_apply _ _ (ix2 0 j) (ix1 j) (by rewrite [Shape.rowMajor_val_one, Shape.rowMajor_val_two]; show j.val = 0 * 256 + j.val; omega)

/-- The second layer's weights. -/
theorem w2_blk (c : Dev nD) (t : Fin cfg0.N) (j : Fin 256) (k : Fin 256) :
    iblk m c 3 t (ix2 j k) = m ((c : Thread nD τ).loc main_arg3) (ix2 j k) := by
  obtain ⟨e0, e1⟩ := (idx_whole t).2.2.1
  rw [← V_main_arg3 m c]
  show V m c main_arg3 (((cfg0.win 3).blk t).view.emb (ix2 j k)) = V m c main_arg3 _
  refine congrArg (V m c main_arg3) (funext fun a => Fin.ext ?_)
  match a with
  | ⟨0, _⟩ => show win0_3.index t (0 : Fin 2) * 256 + 1 * j.val = j.val; omega
  | ⟨1, _⟩ => show win0_3.index t (1 : Fin 2) * 256 + 1 * k.val = k.val; omega

/-- The second layer's bias, as a row. -/
theorem b2_blk (c : Dev nD) (t : Fin cfg0.N) (k : Fin 256) :
    iblk m c 4 t (ix2 0 k) = m ((c : Thread nD τ).loc main_arg4) (ix1 k) := by
  obtain ⟨e0, e1⟩ := (idx_whole t).2.2.2.1
  have hv : iblk m c 4 t (ix2 0 k) = V m c main_v1 (ix2 0 k) := by
    show V m c main_v1 (((cfg0.win 4).blk t).view.emb (ix2 0 k)) = V m c main_v1 _
    refine congrArg (V m c main_v1) (funext fun a => Fin.ext ?_)
    match a with
    | ⟨0, _⟩ => show win0_4.index t (0 : Fin 2) * 1 + 1 * 0 = 0; omega
    | ⟨1, _⟩ => show win0_4.index t (1 : Fin 2) * 256 + 1 * k.val = k.val; omega
  rw [hv, V_b2 m c]
  exact shapeCast_apply _ _ (ix2 0 k) (ix1 k) (by rewrite [Shape.rowMajor_val_one, Shape.rowMajor_val_two]; show k.val = 0 * 256 + k.val; omega)

/-- The third layer's weights on lanes 0 to 63: the unpadded table. -/
theorem wq_blk (c : Dev nD) (t : Fin cfg0.N) (k : Fin 256) (l : Fin 64) :
    iblk m c 5 t (ix2 k (Fin.castAdd 64 l)) = m ((c : Thread nD τ).loc main_arg5) (ix2 k l) := by
  obtain ⟨e0, e1⟩ := (idx_whole t).2.2.2.2.1
  have hv : iblk m c 5 t (ix2 k (Fin.castAdd 64 l)) = V m c main_v2 (ix2 k (Fin.castAdd 64 l)) := by
    show V m c main_v2 (((cfg0.win 5).blk t).view.emb (ix2 k (Fin.castAdd 64 l))) = V m c main_v2 _
    refine congrArg (V m c main_v2) (funext fun a => Fin.ext ?_)
    match a with
    | ⟨0, _⟩ => show win0_5.index t (0 : Fin 2) * 256 + 1 * k.val = k.val; omega
    | ⟨1, _⟩ => show win0_5.index t (1 : Fin 2) * 128 + 1 * l.val = l.val; omega
  rw [hv, V_wq m c]
  exact pad_apply_of_inside _ _ _ _ _ _ _ (ix2 k (Fin.castAdd 64 l)) (ix2 k l)
    (fun a => match a with | ⟨0, _⟩ => by show k.val = 0 + k.val * (0 + 1); omega | ⟨1, _⟩ => by show l.val = 0 + l.val * (0 + 1); omega)

/-- The third layer's bias on lanes 0 to 63: the unpadded vector. -/
theorem bq_blk (c : Dev nD) (t : Fin cfg0.N) (l : Fin 64) :
    iblk m c 6 t (ix2 0 (Fin.castAdd 64 l)) = m ((c : Thread nD τ).loc main_arg6) (ix1 l) := by
  obtain ⟨e0, e1⟩ := (idx_whole t).2.2.2.2.2.1
  have hv : iblk m c 6 t (ix2 0 (Fin.castAdd 64 l)) = V m c main_v4 (ix2 0 (Fin.castAdd 64 l)) := by
    show V m c main_v4 (((cfg0.win 6).blk t).view.emb (ix2 0 (Fin.castAdd 64 l))) = V m c main_v4 _
    refine congrArg (V m c main_v4) (funext fun a => Fin.ext ?_)
    match a with
    | ⟨0, _⟩ => show win0_6.index t (0 : Fin 2) * 1 + 1 * 0 = 0; omega
    | ⟨1, _⟩ => show win0_6.index t (1 : Fin 2) * 128 + 1 * l.val = l.val; omega
  rw [hv, V_bq m c]
  refine (shapeCast_apply _ _ (ix2 0 (Fin.castAdd 64 l)) (ix1 (Fin.castAdd 64 l)) (by rewrite [Shape.rowMajor_val_one, Shape.rowMajor_val_two]; show l.val = 0 * 128 + l.val; omega)).trans ?_
  exact pad_apply_of_inside _ _ _ _ _ _ _ (ix1 (Fin.castAdd 64 l)) (ix1 l)
    (fun a => match a with | ⟨0, _⟩ => by show l.val = 0 + l.val * (0 + 1); omega)

/-- The padded weight column at any of its 128 rows. -/
theorem wh_blk (c : Dev nD) (t : Fin cfg0.N) (l : Fin 128) :
    iblk m c 7 t (ix2 l 0) = whPad (m ((c : Thread nD τ).loc main_arg7)) (ix2 l 0) := by
  obtain ⟨e0, e1⟩ := (idx_whole t).2.2.2.2.2.2
  have hv : iblk m c 7 t (ix2 l 0) = V m c main_v5 (ix2 l 0) := by
    show V m c main_v5 (((cfg0.win 7).blk t).view.emb (ix2 l 0)) = V m c main_v5 _
    refine congrArg (V m c main_v5) (funext fun a => Fin.ext ?_)
    match a with
    | ⟨0, _⟩ => show win0_7.index t (0 : Fin 2) * 128 + 1 * l.val = l.val; omega
    | ⟨1, _⟩ => show win0_7.index t (1 : Fin 2) * 1 + 1 * 0 = 0; omega
  rw [hv, V_wh m c]

/-- The padded weight column on rows 0 to 63: the unpadded column. -/
theorem whPad_low (x : (⟨S64x1, .f32⟩ : BufTy).Contents (Elt F)) (l : Fin 64) :
    whPad x (ix2 (Fin.castAdd 64 l) 0) = x (ix2 l 0) :=
  pad_apply_of_inside _ _ _ _ _ _ _ (ix2 (Fin.castAdd 64 l) 0) (ix2 l 0)
    (fun a => match a with | ⟨0, _⟩ => by show l.val = 0 + l.val * (0 + 1); omega | ⟨1, _⟩ => by show 0 = 0 + 0 * (0 + 1); omega)

/-- The padded weight column on rows 64 to 127: the pad value. -/
theorem whPad_high (x : (⟨S64x1, .f32⟩ : BufTy).Contents (Elt F)) (l : Fin 128) (hl : 64 ≤ l.val) :
    whPad x (ix2 l 0) = padValue (F := F) ix0 := by
  refine (pad_apply_of_not_inside _ _ _ _ _ _ _ (ix2 l 0) (0 : Fin 2) ?_).trans (congrArg _ (eq_ix0 _))
  show ¬(0 ≤ l.val ∧ (l.val - 0) % (0 + 1) = 0 ∧ (l.val - 0) / (0 + 1) < 64)
  omega

/-- The pad value, over the extended reals, is zero: the integer zero converted exactly. -/
theorem padValue_zero : padValue (F := Ideal) ix0 = 0 := by
  show (((0#32 : BitVec 32).toInt : ℝ) : EReal) = 0
  simp

end Cert.KernelIdeal.Blocks

end
-- ==== Proof.KernelPayload.lean ====
/-
  The kernel body's arithmetic read at one entry, over the extended reals. A matrix product into a zero accumulator
  is, at row r and column j, the sum over the contracted position of the two operands' entries; a change of float
  format is the identity; a bias row broadcast down the rows is its entry at the column; the rectifier is the maximum
  with the zero word. So an entry of the feature block is the hyperbolic tangent of three nested such sums, an entry
  of the updated accumulator is the old entry plus the block's column sum, and every entry of the slab is the sum over
  the 128 lanes of accumulator times padded weight.
-/
import proofs.«414129_j65481071402742_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-! ## The four matrix products at an entry

For each product's dimension record: where the left and right operand indices sit on each axis, then the product
into the zero accumulator as a sum over the contracted position. -/

theorem first_lhs_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem first_lhs_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem first_rhs_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem first_rhs_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The first layer's product: [2048, 512] by [512, 256]. -/
theorem first_apply {φ₁ φ₂ : FTy} (a : FVec Ideal S2048x512 φ₁) (b : FVec Ideal S512x256 φ₂) (r : Fin 2048) (j : Fin 256) :
    matmul dot_S2048x512_S512x256_S2048x256_1_0_0_1_n_n none a b (constant S2048x256 .f32 0x00000000#32) (ix2 r j)
      = ∑ k : Fin 512, a (ix2 r k) * b (ix2 k j) := by
  simp only [matmul]
  rw [Ideal.matmul_constant_zero_apply, ← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ix2 r j) ((ValueIdx.contrEquiv1 dot_S2048x512_S512x256_S2048x256_1_0_0_1_n_n 512 rfl rfl).symm k) = ix2 r k := funext fun a => Fin.ext (by
    match a with
    | ⟨0, _⟩ => exact first_lhs_0 _ _
    | ⟨1, _⟩ => exact (first_lhs_1 _ _).trans hk)
  have er : dot_S2048x512_S512x256_S2048x256_1_0_0_1_n_n.rhsIdx (ix2 r j) ((ValueIdx.contrEquiv1 dot_S2048x512_S512x256_S2048x256_1_0_0_1_n_n 512 rfl rfl).symm k) = ix2 k j := funext fun a => Fin.ext (by
    match a with
    | ⟨0, _⟩ => exact (first_rhs_0 _ _).trans hk
    | ⟨1, _⟩ => exact first_rhs_1 _ _)
  rw [el, er]

theorem second_lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem second_lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem second_rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem second_rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The second layer's product: [2048, 256] by [256, 256]. -/
theorem second_apply {φ₁ φ₂ : FTy} (a : FVec Ideal S2048x256 φ₁) (b : FVec Ideal S256x256 φ₂) (r : Fin 2048) (j : Fin 256) :
    matmul dot_S2048x256_S256x256_S2048x256_1_0_0_1_n_n none a b (constant S2048x256 .f32 0x00000000#32) (ix2 r j)
      = ∑ k : Fin 256, a (ix2 r k) * b (ix2 k j) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 r j) ((ValueIdx.contrEquiv1 dot_S2048x256_S256x256_S2048x256_1_0_0_1_n_n 256 rfl rfl).symm k) = ix2 r k := funext fun a => Fin.ext (by
    match a with
    | ⟨0, _⟩ => exact second_lhs_0 _ _
    | ⟨1, _⟩ => exact (second_lhs_1 _ _).trans hk)
  have er : dot_S2048x256_S256x256_S2048x256_1_0_0_1_n_n.rhsIdx (ix2 r j) ((ValueIdx.contrEquiv1 dot_S2048x256_S256x256_S2048x256_1_0_0_1_n_n 256 rfl rfl).symm k) = ix2 k j := funext fun a => Fin.ext (by
    match a with
    | ⟨0, _⟩ => exact (second_rhs_0 _ _).trans hk
    | ⟨1, _⟩ => exact second_rhs_1 _ _)
  rw [el, er]

theorem third_lhs_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem third_lhs_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem third_rhs_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem third_rhs_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The third layer's product: [2048, 256] by [256, 128]. -/
theorem third_apply {φ₁ φ₂ : FTy} (a : FVec Ideal S2048x256 φ₁) (b : FVec Ideal S256x128 φ₂) (r : Fin 2048) (l : Fin 128) :
    matmul dot_S2048x256_S256x128_S2048x128_1_0_0_1_n_n none a b (constant S2048x128 .f32 0x00000000#32) (ix2 r l)
      = ∑ k : Fin 256, a (ix2 r k) * b (ix2 k l) := by
  simp only [matmul]
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 r l) ((ValueIdx.contrEquiv1 dot_S2048x256_S256x128_S2048x128_1_0_0_1_n_n 256 rfl rfl).symm k) = ix2 r k := funext fun a => Fin.ext (by
    match a with
    | ⟨0, _⟩ => exact third_lhs_0 _ _
    | ⟨1, _⟩ => exact (third_lhs_1 _ _).trans hk)
  have er : dot_S2048x256_S256x128_S2048x128_1_0_0_1_n_n.rhsIdx (ix2 r l) ((ValueIdx.contrEquiv1 dot_S2048x256_S256x128_S2048x128_1_0_0_1_n_n 256 rfl rfl).symm k) = ix2 k l := funext fun a => Fin.ext (by
    match a with
    | ⟨0, _⟩ => exact (third_rhs_0 _ _).trans hk
    | ⟨1, _⟩ => exact third_rhs_1 _ _)
  rw [el, er]

theorem last_lhs_0 (i : S1x1.Idx) (q : dot_S1x128_S128x1_S1x1_1_0_0_1_n_n.contr.Idx) :
    (dot_S1x128_S128x1_S1x1_1_0_0_1_n_n.lhsIdx i q 0).val = (i 0).val := by
  unfold DotDims.lhsIdx
  rw [dif_neg (show ¬(0 : Fin S1x128.rank) ∈ dot_S1x128_S128x1_S1x1_1_0_0_1_n_n.lhsBatch by decide), dif_pos (show (0 : Fin S1x128.rank) ∈ dot_S1x128_S128x1_S1x1_1_0_0_1_n_n.lhsNonContracting by decide)]
  rfl
theorem last_lhs_1 (i : S1x1.Idx) (q : dot_S1x128_S128x1_S1x1_1_0_0_1_n_n.contr.Idx) :
    (dot_S1x128_S128x1_S1x1_1_0_0_1_n_n.lhsIdx i q 1).val = (q ⟨0, by decide⟩).val :=
  dot_S1x128_S128x1_S1x1_1_0_0_1_n_n.lhsIdx_val_of_single rfl i q
theorem last_rhs_0 (i : S1x1.Idx) (q : dot_S1x128_S128x1_S1x1_1_0_0_1_n_n.contr.Idx) :
    (dot_S1x128_S128x1_S1x1_1_0_0_1_n_n.rhsIdx i q 0).val = (q ⟨0, by decide⟩).val :=
  dot_S1x128_S128x1_S1x1_1_0_0_1_n_n.rhsIdx_val_of_single rfl i q
theorem last_rhs_1 (i : S1x1.Idx) (q : dot_S1x128_S128x1_S1x1_1_0_0_1_n_n.contr.Idx) :
    (dot_S1x128_S128x1_S1x1_1_0_0_1_n_n.rhsIdx i q 1).val = (i 1).val := by
  unfold DotDims.rhsIdx
  rw [dif_neg (show ¬(1 : Fin S128x1.rank) ∈ dot_S1x128_S128x1_S1x1_1_0_0_1_n_n.rhsBatch by decide), dif_pos (show (1 : Fin S128x1.rank) ∈ dot_S1x128_S128x1_S1x1_1_0_0_1_n_n.rhsNonContracting by decide)]
  rfl

/-- The last contraction: the accumulator row [1, 128] by the padded weight column [128, 1]. -/
theorem last_apply {φ₁ φ₂ : FTy} (a : FVec Ideal S1x128 φ₁) (b : FVec Ideal S128x1 φ₂) :
    matmul dot_S1x128_S128x1_S1x1_1_0_0_1_n_n none a b (constant S1x1 .f32 0x00000000#32) (ix2 0 0)
      = ∑ k : Fin 128, a (ix2 0 k) * b (ix2 k 0) := by
  simp only [matmul]
  rw [Ideal.matmul_constant_zero_apply, ← Equiv.sum_comp (ValueIdx.contrEquiv1 dot_S1x128_S128x1_S1x1_1_0_0_1_n_n 128 rfl rfl).symm]
  refine Finset.sum_congr rfl fun k _ => ?_
  have hk := ValueIdx.contrEquiv1_symm_val dot_S1x128_S128x1_S1x1_1_0_0_1_n_n 128 rfl rfl k
  have el : dot_S1x128_S128x1_S1x1_1_0_0_1_n_n.lhsIdx (ix2 0 0) ((ValueIdx.contrEquiv1 dot_S1x128_S128x1_S1x1_1_0_0_1_n_n 128 rfl rfl).symm k) = ix2 0 k := funext fun a => Fin.ext (by
    match a with
    | ⟨0, _⟩ => exact last_lhs_0 _ _
    | ⟨1, _⟩ => exact (last_lhs_1 _ _).trans hk)
  have er : dot_S1x128_S128x1_S1x1_1_0_0_1_n_n.rhsIdx (ix2 0 0) ((ValueIdx.contrEquiv1 dot_S1x128_S128x1_S1x1_1_0_0_1_n_n 128 rfl rfl).symm k) = ix2 k 0 := funext fun a => Fin.ext (by
    match a with
    | ⟨0, _⟩ => exact (last_rhs_0 _ _).trans hk
    | ⟨1, _⟩ => exact last_rhs_1 _ _)
  rw [el, er]

/-! ## Bias rows -/

/-- A [1, 256] row broadcast down 2048 rows reads the row's entry at the column. -/
theorem bias256 {α : Type} (x : S1x256.Idx → α) (hb : S1x256.Broadcasts S2048x256) (r : Fin 2048) (j : Fin 256) :
    broadcastTo S2048x256 x hb (ix2 r j) = x (ix2 0 j) :=
  broadcastTo_apply x hb (ix2 r j) (ix2 0 j) (fun a => match a with | ⟨0, _⟩ => rfl | ⟨1, _⟩ => rfl)

/-- A [1, 128] row broadcast down 2048 rows reads the row's entry at the lane. -/
theorem bias128 {α : Type} (x : S1x128.Idx → α) (hb : S1x128.Broadcasts S2048x128) (r : Fin 2048) (l : Fin 128) :
    broadcastTo S2048x128 x hb (ix2 r l) = x (ix2 0 l) :=
  broadcastTo_apply x hb (ix2 r l) (ix2 0 l) (fun a => match a with | ⟨0, _⟩ => rfl | ⟨1, _⟩ => rfl)

/-! ## The body's payloads at an entry -/

/-- Reading through a reshape whose source has a single index reads that index. -/
theorem shapeCast_single {s t : Shape} {α : Type} [Subsingleton s.Idx] (x : s.Idx → α) (h : s.ShapeCasts t) (j : t.Idx) (k : s.Idx) :
    shapeCast t x h j = x k := by
  unfold shapeCast
  exact congrArg x (Subsingleton.elim _ _)

/-- An entry of the feature block: the hyperbolic tangent of the third layer's sum over the rectified second layer's
    sum over the rectified first layer's sum, with the three bias rows. -/
theorem feature_apply (x0 : Vec Ideal S2048x512 .f32) (x1 : Vec Ideal S512x256 .f32) (x2 : Vec Ideal S1x256 .f32)
    (x3 : Vec Ideal S256x256 .f32) (x4 : Vec Ideal S1x256 .f32) (x5 : Vec Ideal S256x128 .f32) (x6 : Vec Ideal S1x128 .f32)
    (r : Fin 2048) (l : Fin 128) :
    k0_pay4 (F := Ideal) x0 x1 x2 x3 x4 x5 x6 (ix2 r l)
      = Ideal.tanh ((∑ k : Fin 256, max ((∑ j : Fin 256, max ((∑ i : Fin 512, x0 (ix2 r i) * x1 (ix2 i j)) + x2 (ix2 0 j))
            (Ideal.ofBits .f32 0x00000000#32) * x3 (ix2 j k)) + x4 (ix2 0 k)) (Ideal.ofBits .f32 0x00000000#32) * x5 (ix2 k l))
          + x6 (ix2 0 l)) := by
  unfold k0_pay4
  simp only [tanh, addf, maximumf, truncf, broadcast, third_apply, second_apply, first_apply, bias256, bias128, shapeCast_self,
    Ideal.tanh_def, Ideal.addf_def, Ideal.maximumf_def, Ideal.truncf_def, Ideal.ofBits_def]

/-- The lane sum down the 2048 rows of a block, at a lane (the reduction's accumulator word is the zero word, as printed). -/
theorem colsum_apply (v : FVec Ideal S2048x128 .f32) (h : S2048x128.Reduces [0] S128) (hφ : FKind.Formats .f32)
    (hacc : (0x00000000#32 : BitVec 32) = 0x00000000#32) (l : Fin 128) :
    multiReduction .add [0] S128 v 0x00000000#32 h hφ hacc (ix1 l) = ∑ r : Fin 2048, v (ix2 r l) := by
  refine (Ideal.multiReduction_add_single v 0x00000000#32 h hφ hacc (ix1 l)).trans ?_
  exact Finset.sum_congr rfl fun r _ => congrArg v (funext fun a => Fin.ext (match a with | ⟨0, _⟩ => rfl | ⟨1, _⟩ => rfl))

/-- An entry of the updated accumulator: the old entry plus the block's column sum. -/
theorem acc_apply (v : FVec Ideal S2048x128 .f32) (a : Vec Ideal S1x128 .f32) (l : Fin 128) :
    k0_pay1 (F := Ideal) v a (ix2 0 l) = a (ix2 0 l) + ∑ r : Fin 2048, v (ix2 r l) := by
  unfold k0_pay1
  rw [shapeCast_self]
  show a (ix2 0 l) + shapeCast S1x128 (multiReduction .add [0] S128 v 0x00000000#32 _ _ _) _ (ix2 0 l) = _
  rw [shapeCast_apply _ _ (ix2 0 l) (ix1 l) (by rewrite [Shape.rowMajor_val_one, Shape.rowMajor_val_two]; show l.val = 0 * 128 + l.val; omega)]
  exact congrArg (a (ix2 0 l) + ·) (colsum_apply v _ _ _ l)

/-- The zeroed accumulator's entries are the zero word. -/
theorem zero_apply (l : Fin 128) : k0_pay3 (F := Ideal) (ix2 0 l) = Ideal.ofBits .f32 0x00000000#32 := by
  unfold k0_pay3
  rw [shapeCast_self]
  rfl

/-- The slab's first entry: the accumulator row contracted with the padded weight column over the 128 lanes. -/
theorem slab_apply (a : Vec Ideal S1x128 .f32) (b : Vec Ideal S128x1 .f32) :
    k0_pay2 (F := Ideal) a b (ix2 0 0) = ∑ l : Fin 128, a (ix2 0 l) * b (ix2 l 0) := by
  unfold k0_pay2
  rw [broadcastTo_apply _ _ (ix2 0 0) (ix2 0 0) (fun a => match a with | ⟨0, _⟩ => rfl | ⟨1, _⟩ => rfl), shapeCast_self,
    shapeCast_self, last_apply]

end Cert.KernelIdeal.Payload

end
-- ==== Proof.RefLine.lean ====
/-
  What the reference leaves in its result buffer, read one operation at a time. The reference is a straight line of
  71 host operations; each writes one new buffer from buffers written before it. Walking the line with a list of
  "this buffer holds this value" facts, every operation adds one fact: its result buffer holds the operation applied to
  its operands' listed values, which is by definition the next stage value. No stage is ever expanded, so the
  8192 x 8192 intermediate tables stay names. At the end the result buffer holds the last stage, a function of the
  nine arguments.
-/
import proofs.«414129_j65481071402742_3_alg».proof.Proof.RefReadCopy
import proofs.«414129_j65481071402742_3_alg».proof.Proof.LibHostLine3

noncomputable section

namespace Cert.ReferenceIdeal.RefLine

open Cert.ReferenceIdeal Cert.ReferenceIdeal.Gen Cert.ReferenceIdeal.RunCopy Cert.ReferenceIdeal.ReadCopy
open Idealize.ShloMosaic Idealize.ShloMosaic.TcCoe Idealize.SL.Sem Idealize.ShloMosaic.StableHlo

variable {F : FTy → Type} [FloatOps F]

section Line

variable (x0 : (⟨S8192x512, .f32⟩ : BufTy).Contents (Elt F)) (x1 : (⟨S512x256, .f32⟩ : BufTy).Contents (Elt F))
  (x2 : (⟨S256, .f32⟩ : BufTy).Contents (Elt F)) (x3 : (⟨S256x256, .f32⟩ : BufTy).Contents (Elt F))
  (x4 : (⟨S256, .f32⟩ : BufTy).Contents (Elt F)) (x5 : (⟨S256x64, .f32⟩ : BufTy).Contents (Elt F))
  (x6 : (⟨S64, .f32⟩ : BufTy).Contents (Elt F)) (x7 : (⟨S64x1, .f32⟩ : BufTy).Contents (Elt F))
  (x8 : (⟨S1, .f32⟩ : BufTy).Contents (Elt F))

-- the stage values, by the buffer that holds them
local notation "w0" => val_main_v0 (F := F) x0 x1
local notation "w1" => val_main_v1 (F := F) x2
local notation "w2" => val_main_v2 (F := F) x2
local notation "w3" => val_main_v3 (F := F) x0 x1 x2
local notation "ca0" => val_main_call0_cst (F := F)
local notation "cb0" => val_main_call0_v0 (F := F)
local notation "w4" => val_main_v4 (F := F) x0 x1 x2
local notation "w5" => val_main_v5 (F := F) x0 x1 x2 x3
local notation "w6" => val_main_v6 (F := F) x4
local notation "w7" => val_main_v7 (F := F) x4
local notation "w8" => val_main_v8 (F := F) x0 x1 x2 x3 x4
local notation "ca1" => val_main_call1_cst (F := F)
local notation "cb1" => val_main_call1_v0 (F := F)
local notation "w9" => val_main_v9 (F := F) x0 x1 x2 x3 x4
local notation "w10" => val_main_v10 (F := F) x0 x1 x2 x3 x4 x5
local notation "w11" => val_main_v11 (F := F) x6
local notation "w12" => val_main_v12 (F := F) x6
local notation "w13" => val_main_v13 (F := F) x0 x1 x2 x3 x4 x5 x6
local notation "w14" => val_main_v14 (F := F) x0 x1 x2 x3 x4 x5 x6
local notation "na0" => val_main_call2_v0 (F := F) x0 x1 x2 x3 x4 x5 x6
local notation "nac" => val_main_call2_cst (F := F)
local notation "na1" => val_main_call2_v1 (F := F) x0 x1 x2 x3 x4 x5 x6
local notation "na2" => val_main_call2_v2 (F := F) x0 x1 x2 x3 x4 x5 x6
local notation "w15" => val_main_v15 (F := F) x0 x1 x2 x3 x4 x5 x6
local notation "wc" => val_main_cst (F := F)
local notation "w16" => val_main_v16 (F := F)
local notation "w17" => val_main_v17 (F := F) x0 x1 x2 x3 x4 x5 x6
local notation "w18" => val_main_v18 (F := F) x0 x1 x2 x3 x4 x5 x6
local notation "w19" => val_main_v19 (F := F) x0 x1 x2 x3 x4 x5 x6
local notation "w20" => val_main_v20 (F := F) x0 x1 x2 x3 x4 x5 x6
local notation "w21" => val_main_v21 (F := F) x0 x1 x2 x3 x4 x5 x6
local notation "w22" => val_main_v22 (F := F) x0 x1 x2 x3 x4 x5 x6
local notation "wc0" => val_main_cst_0 (F := F)
local notation "w23" => val_main_v23 (F := F)
local notation "w24" => val_main_v24 (F := F) x0 x1 x2 x3 x4 x5 x6
local notation "w25" => val_main_v25 (F := F)
local notation "w26" => val_main_v26 (F := F)
local notation "wi" => val_main_c (F := F)
local notation "w27" => val_main_v27 (F := F)
local notation "w28" => val_main_v28 (F := F)
local notation "w29" => val_main_v29 (F := F)
local notation "w30" => val_main_v30 (F := F)
local notation "w31" => val_main_v31 (F := F) x0 x1 x2 x3 x4 x5 x6
local notation "w32" => val_main_v32 (F := F) x0 x1 x2 x3 x4 x5 x6
local notation "wi1" => val_main_c_1 (F := F)
local notation "w33" => val_main_v33 (F := F) x0 x1 x2 x3 x4 x5 x6
local notation "w34" => val_main_v34 (F := F) x0 x1 x2 x3 x4 x5 x6
local notation "wc2" => val_main_cst_2 (F := F)
local notation "w35" => val_main_v35 (F := F) x0 x1 x2 x3 x4 x5 x6
local notation "wi3" => val_main_c_3 (F := F)
local notation "w36" => val_main_v36 (F := F)
local notation "w37" => val_main_v37 (F := F) x0 x1 x2 x3 x4 x5 x6
local notation "wi4" => val_main_c_4 (F := F)
local notation "w38" => val_main_v38 (F := F)
local notation "w39" => val_main_v39 (F := F) x0 x1 x2 x3 x4 x5 x6
local notation "w40" => val_main_v40 (F := F) x0 x1 x2 x3 x4 x5 x6
local notation "w41" => val_main_v41 (F := F) x0 x1 x2 x3 x4 x5 x6
local notation "wc5" => val_main_cst_5 (F := F)
local notation "wa0" => val_main_call3_v0 (F := F)
local notation "wa1" => val_main_call3_v1 (F := F)
local notation "w42" => val_main_v42 (F := F) x0 x1 x2 x3 x4 x5 x6
local notation "w43" => val_main_v43 (F := F) x0 x1 x2 x3 x4 x5 x6
local notation "w44" => val_main_v44 (F := F) x0 x1 x2 x3 x4 x5 x6
local notation "w45" => val_main_v45 (F := F) x0 x1 x2 x3 x4 x5 x6
local notation "wc6" => val_main_cst_6 (F := F)
local notation "w46" => val_main_v46 (F := F) x0 x1 x2 x3 x4 x5 x6
local notation "w47" => val_main_v47 (F := F) x0 x1 x2 x3 x4 x5 x6
local notation "w48" => val_main_v48 (F := F) x0 x1 x2 x3 x4 x5 x6 x7
local notation "w49" => val_main_v49 (F := F) x8
local notation "w50" => val_main_v50 (F := F) x0 x1 x2 x3 x4 x5 x6 x7 x8
local notation "w51" => val_main_v51 (F := F) x0 x1 x2 x3 x4 x5 x6 x7 x8

set_option maxRecDepth 65536 in
set_option maxHeartbeats 4000000 in
/-- From any valuation holding the nine arguments at `x0 … x8`, the 71 operations leave the result buffer at the
    last stage. Each step names the positions of the operation's operands in the list built so far (the newest fact
    is first); the equation "listed result = operation of listed operands" is the stage's definition. -/
theorem line : ∀ V : Valuation τ sig (Elt F),
    HostLine.Sat V ([⟨main_arg0, x0⟩, ⟨main_arg1, x1⟩, ⟨main_arg2, x2⟩, ⟨main_arg3, x3⟩, ⟨main_arg4, x4⟩, ⟨main_arg5, x5⟩,
      ⟨main_arg6, x6⟩, ⟨main_arg7, x7⟩, ⟨main_arg8, x8⟩] : List (HostLine.Fact sig (Elt F))) →
    HostLine.Sat (after (ops (F := F)) V) ([⟨main_v51, w51⟩] : List (HostLine.Fact sig (Elt F))) := by
  -- the first linear layer and its rectifier
  refine HostLine.step_binary 0 1 x0 x1 w0 rfl rfl rfl rfl ?_
  refine HostLine.step_unary 3 x2 w1 rfl rfl rfl ?_
  refine HostLine.step_unary 0 w1 w2 rfl rfl rfl ?_
  refine HostLine.step_binary 2 0 w0 w2 w3 rfl rfl rfl rfl ?_
  refine HostLine.step_tnullary ca0 rfl rfl ?_
  refine HostLine.step_tunary 0 ca0 cb0 rfl rfl rfl ?_
  refine HostLine.step_tbinary 2 0 w3 cb0 w4 rfl rfl rfl rfl ?_
  -- the second
  refine HostLine.step_binary 0 10 w4 x3 w5 rfl rfl rfl rfl ?_
  refine HostLine.step_unary 12 x4 w6 rfl rfl rfl ?_
  refine HostLine.step_unary 0 w6 w7 rfl rfl rfl ?_
  refine HostLine.step_binary 2 0 w5 w7 w8 rfl rfl rfl rfl ?_
  refine HostLine.step_tnullary ca1 rfl rfl ?_
  refine HostLine.step_tunary 0 ca1 cb1 rfl rfl rfl ?_
  refine HostLine.step_tbinary 2 0 w8 cb1 w9 rfl rfl rfl rfl ?_
  -- the feature table: the third linear layer and the hyperbolic tangent
  refine HostLine.step_binary 0 19 w9 x5 w10 rfl rfl rfl rfl ?_
  refine HostLine.step_unary 21 x6 w11 rfl rfl rfl ?_
  refine HostLine.step_unary 0 w11 w12 rfl rfl rfl ?_
  refine HostLine.step_binary 2 0 w10 w12 w13 rfl rfl rfl rfl ?_
  refine HostLine.step_unary 0 w13 w14 rfl rfl rfl ?_
  -- the rows' norms
  refine HostLine.step_tbinary 0 0 w14 w14 na0 rfl rfl rfl rfl ?_
  refine HostLine.step_tnullary nac rfl rfl ?_
  refine HostLine.step_tbinary 1 0 na0 nac na1 rfl rfl rfl rfl ?_
  refine HostLine.step_tunary 0 na1 na2 rfl rfl rfl ?_
  refine HostLine.step_tunary 0 na2 w15 rfl rfl rfl ?_
  refine HostLine.step_nullary wc rfl rfl ?_
  refine HostLine.step_unary 0 wc w16 rfl rfl rfl ?_
  refine HostLine.step_binary 2 0 w15 w16 w17 rfl rfl rfl rfl ?_
  refine HostLine.step_unary 0 w17 w18 rfl rfl rfl ?_
  refine HostLine.step_binary 9 0 w14 w18 w19 rfl rfl rfl rfl ?_
  -- the squared cosines of all pairs of rows, compared with the threshold
  refine HostLine.step_unary 0 w19 w20 rfl rfl rfl ?_
  refine HostLine.step_binary 1 0 w19 w20 w21 rfl rfl rfl rfl ?_
  refine HostLine.step_binary 0 0 w21 w21 w22 rfl rfl rfl rfl ?_
  refine HostLine.step_nullary wc0 rfl rfl ?_
  refine HostLine.step_unary 0 wc0 w23 rfl rfl rfl ?_
  refine HostLine.step_binary 2 0 w22 w23 w24 rfl rfl rfl rfl ?_
  -- off the diagonal
  refine HostLine.step_nullary w25 rfl rfl ?_
  refine HostLine.step_nullary w26 rfl rfl ?_
  refine HostLine.step_nullary wi rfl rfl ?_
  refine HostLine.step_unary 0 wi w27 rfl rfl rfl ?_
  refine HostLine.step_binary 3 0 w25 w27 w28 rfl rfl rfl rfl ?_
  refine HostLine.step_binary 0 3 w28 w26 w29 rfl rfl rfl rfl ?_
  refine HostLine.step_unary 0 w29 w30 rfl rfl rfl ?_
  refine HostLine.step_binary 7 0 w24 w30 w31 rfl rfl rfl rfl ?_
  -- the flags counted as integers and as floats
  refine HostLine.step_unary 0 w31 w32 rfl rfl rfl ?_
  refine HostLine.step_nullary wi1 rfl rfl ?_
  refine HostLine.step_binary 1 0 w32 wi1 w33 rfl rfl rfl rfl ?_
  refine HostLine.step_unary 3 w31 w34 rfl rfl rfl ?_
  refine HostLine.step_nullary wc2 rfl rfl ?_
  refine HostLine.step_binary 1 0 w34 wc2 w35 rfl rfl rfl rfl ?_
  -- the guarded mean weight
  refine HostLine.step_nullary wi3 rfl rfl ?_
  refine HostLine.step_unary 0 wi3 w36 rfl rfl rfl ?_
  refine HostLine.step_binary 5 0 w33 w36 w37 rfl rfl rfl rfl ?_
  refine HostLine.step_nullary wi4 rfl rfl ?_
  refine HostLine.step_unary 0 wi4 w38 rfl rfl rfl ?_
  refine HostLine.step_binary 8 0 w33 w38 w39 rfl rfl rfl rfl ?_
  refine HostLine.step_unary 0 w39 w40 rfl rfl rfl ?_
  refine HostLine.step_binary 7 0 w35 w40 w41 rfl rfl rfl rfl ?_
  refine HostLine.step_nullary wc5 rfl rfl ?_
  refine HostLine.step_tunary 0 wc5 wa0 rfl rfl rfl ?_
  refine HostLine.step_tunary 0 wa0 wa1 rfl rfl rfl ?_
  -- (the flag operand is read through a typed reference: its transport is the identity cast, said by `cast_eq`
  --  so that the comparison underneath is never opened)
  refine HostLine.step_tternary 8 3 0 w37 w41 wa1 w42
    (Eq.trans rfl (congrArg (fun v => some (⟨main_v37, v⟩ : HostLine.Fact sig (Elt F))) (cast_eq _ w37).symm))
    rfl rfl (Eq.symm (Eq.trans (cast_eq _ _) rfl)) rfl ?_
  -- the weighted features, summed over the rows and contracted with the weight column
  refine HostLine.step_unary 0 w42 w43 rfl rfl rfl ?_
  refine HostLine.step_unary 0 w43 w44 rfl rfl rfl ?_
  refine HostLine.step_binary 44 0 w14 w44 w45 rfl rfl rfl rfl ?_
  refine HostLine.step_nullary wc6 rfl rfl ?_
  refine HostLine.step_binary 1 0 w45 wc6 w46 rfl rfl rfl rfl ?_
  refine HostLine.step_unary 0 w46 w47 rfl rfl rfl ?_
  refine HostLine.step_binary 0 74 w47 x7 w48 rfl rfl rfl rfl ?_
  refine HostLine.step_unary 76 x8 w49 rfl rfl rfl ?_
  refine HostLine.step_binary 1 0 w48 w49 w50 rfl rfl rfl rfl ?_
  refine HostLine.step_reshape 0 w50 w51 rfl rfl rfl ?_
  exact HostLine.done [0] rfl

end Line

/-- So after the reference's operations, from the launch contents, the result buffer holds the last stage of the
    arguments' launch contents. -/
theorem result_eq (m : (ℓ : Loc nD τ sig) → Buf (Elt F) ℓ) (c : Dev nD) :
    after (ops (F := F)) (launchContents m c) (Proc.devRef .tc main_v51)
      = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (line _ _ _ _ _ _ _ _ _ (launchContents m c) ?_) ⟨main_v51, _⟩ (List.mem_singleton.2 rfl)
  intro p hp
  simp only [List.mem_cons, List.mem_nil_iff, or_false] at hp
  rcases hp with rfl | rfl | rfl | rfl | rfl | rfl | rfl | rfl | rfl <;> rfl

/-- The reference's run with its result named: every weakly fair execution terminates with the result buffer at the
    last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_eq m c), (h c).2⟩) (RunCopy.run (F := F) m ρ)

end Cert.ReferenceIdeal.RefLine

end
-- ==== Proof.FlagCount.lean ====
/-
  A row of zero-or-one flags, counted twice: once as an integer (each flag widened to a 32-bit word, the words
  added) and once as a real (each flag converted to a float, the floats added exactly). Both counts denote the same
  natural number `c`, at most the row's length. So "float count divided by the float of max(integer count, 1)",
  taken where the integer count is positive and replaced by the constant one elsewhere, is `c / c = 1` when
  `c > 0` and the constant when `c = 0`: the mean weight of a row is one whatever the flags are.
-/
import Idealize.ShloMosaic.PureOps.Ideal
import Idealize.ShloMosaic.Lib.IndicatorCount

namespace Cert.EncoderSum

open Idealize.ShloMosaic

/-- A finite sum of reals, read in the extended reals, is the sum of the terms read there. -/
theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A one-bit word denotes 1 when it is the word 1, and 0 otherwise. -/
theorem bit_toNat (b : BitVec 1) : b.toNat = if b = 1#1 then 1 else 0 := by
  by_cases h : b = 1#1
  · rw [if_pos h, h]; rfl
  · rw [if_neg h]
    have hl := b.isLt
    have h1 : b.toNat ≠ 1 := fun e => h (BitVec.eq_of_toNat_eq (by simpa using e))
    omega

/-- The exact float sum of a row of flags is the number of set flags. -/
theorem sum_flags {ι : Type} [Fintype ι] (p : ι → BitVec 1) :
    (∑ k, (((p k).toNat : ℝ) : EReal)) = (((Finset.univ.filter fun k => p k = 1#1).card : ℝ) : EReal) := by
  rw [← coe_sum, ← Nat.cast_sum]
  congr 2
  simp only [bit_toNat]
  rw [Finset.sum_boole, Nat.cast_id]

/-- THE MEAN WEIGHT IS ONE. `z` is the float sum's initial value (zero) and `one` the constant the guard
    returns where no flag is set. -/
theorem guarded_mean_eq_one {ι : Type} [Fintype ι] (hι : Fintype.card ι < 2 ^ 31) (p : ι → BitVec 1)
    (z one : EReal) (hz : z = 0) (hone : one = 1) :
    Scalar.select (IntOp.cmpi .sgt (Finset.univ.fold IntOp.addi (0#32) fun k => (p k).setWidth 32) 0#32)
      (Ideal.div (z + ∑ k, (((p k).toNat : ℝ) : EReal))
        (((IntOp.maxsi (Finset.univ.fold IntOp.addi (0#32) fun k => (p k).setWidth 32) 1#32).toInt : ℝ) : EReal))
      one = 1 := by
  classical
  rw [IndicatorCount.fold_addi_setWidth_eq_card, sum_flags, hz, hone, zero_add]
  generalize hc : (Finset.univ.filter fun k => p k = 1#1).card = c
  have hcle : c < 2 ^ 31 := hc ▸ lt_of_le_of_lt (Finset.card_le_univ _) hι
  have hnat : (BitVec.ofNat 32 c).toNat = c := by
    rw [BitVec.toNat_ofNat]; exact Nat.mod_eq_of_lt (by omega)
  have hint : (BitVec.ofNat 32 c).toInt = (c : ℤ) := by
    rw [BitVec.toInt_eq_toNat_of_lt (by rw [hnat]; omega), hnat]
  by_cases h0 : c = 0
  · subst h0
    have hg : IntOp.cmpi .sgt (BitVec.ofNat 32 0) 0#32 = 0#1 := by decide
    rw [hg]
    exact if_neg (by decide)
  · have hpos : 0 < c := Nat.pos_of_ne_zero h0
    have hg : IntOp.cmpi .sgt (BitVec.ofNat 32 c) 0#32 = 1#1 := by
      show BitVec.ofBool ((0#32 : BitVec 32).slt (BitVec.ofNat 32 c)) = 1#1
      rw [BitVec.slt_eq_decide, hint]
      have : ((0#32 : BitVec 32).toInt) = 0 := by decide
      rw [this, decide_eq_true (by exact_mod_cast hpos)]
      rfl
    have hm : (IntOp.maxsi (BitVec.ofNat 32 c) 1#32).toInt = (c : ℤ) := by
      unfold IntOp.maxsi
      by_cases h1 : (1#32 : BitVec 32).slt (BitVec.ofNat 32 c) = true
      · rw [if_pos h1, hint]
      · rw [if_neg h1]
        have h1' : ¬ ((1#32 : BitVec 32).toInt < (BitVec.ofNat 32 c).toInt) := fun h => h1 (BitVec.slt_iff_toInt_lt.mpr h)
        rw [hint] at h1'
        have : ((1#32 : BitVec 32).toInt) = 1 := by decide
        rw [this] at h1' ⊢
        omega
    rw [hg, hm]
    show (if (1#1 : BitVec 1) = 1 then _ else _) = (1 : EReal)
    rw [if_pos (show (1#1 : BitVec 1) = 1 from rfl)]
    have hcr : ((c : ℤ) : ℝ) ≠ 0 := by exact_mod_cast h0
    rw [Ideal.div_coe hcr, ← EReal.coe_mul]
    have : ((c : ℕ) : ℝ) * (1 / ((c : ℤ) : ℝ)) = 1 := by
      have : ((c : ℤ) : ℝ) = ((c : ℕ) : ℝ) := by push_cast; rfl
      rw [this]; field_simp
    rw [this, EReal.coe_one]

end Cert.EncoderSum
-- ==== Proof.RefEntry.lean ====
/-
  The reference's result read at its one entry, over the extended reals. Every row's mean weight is one: the flags of
  the row are counted once as 32-bit integers and once as exact floats, the two counts are the same number, and the
  guarded quotient of them is one whatever the flags are. So the result is the sum over the 64 lanes of the column sum
  of the feature table (each row times its weight, one) times the weight column, plus the bias.
-/
import proofs.«414129_j65481071402742_3_alg».proof.Proof.RefLine
import proofs.«414129_j65481071402742_3_alg».proof.Proof.FlagCount
import Idealize.ShloMosaic.PureOps.Reduce
import Idealize.ShloMosaic.PureOps.IdealRules

noncomputable section

namespace Cert.ReferenceIdeal.RefEntry

open Cert.ReferenceIdeal Cert.ReferenceIdeal.Gen Cert.ReferenceIdeal.ReadCopy
open Idealize.ShloMosaic Idealize.ShloMosaic.ValueIdx

variable (x0 : (⟨S8192x512, .f32⟩ : BufTy).Contents (Elt Ideal)) (x1 : (⟨S512x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x64, .f32⟩ : BufTy).Contents (Elt Ideal))
  (x6 : (⟨S64, .f32⟩ : BufTy).Contents (Elt Ideal))

/-- The integer count of row `i`'s flags, as a fold of the widened flags over the row. -/
theorem count_fold (i : S8192.Idx) :
    val_main_v33 (F := Ideal) x0 x1 x2 x3 x4 x5 x6 i
      = Finset.univ.fold IntOp.addi (0#32) (fun k : Fin 8192 => (val_main_v31 (F := Ideal) x0 x1 x2 x3 x4 x5 x6 (idx_main_v35 i k)).setWidth 32) := by
  unfold val_main_v33 val_main_v32
  generalize val_main_v31 (F := Ideal) x0 x1 x2 x3 x4 x5 x6 = y0
  rw [Host.reduce_eq_fold_single IntOp.addi _ _ reducesTo_S8192x8192_S8192_d1 (by decide) h_S_ i]
  refine congrArg (fun f => Finset.univ.fold IntOp.addi (0#32) f) (funext fun k => ?_)
  exact congrArg (fun j => (y0 j).setWidth 32) (funext fun a => Fin.ext (by match a with | ⟨0, _⟩ => rfl | ⟨1, _⟩ => rfl))

/-- THE MEAN WEIGHT OF EVERY ROW IS ONE. -/
theorem weight_one (i : S8192.Idx) : val_main_v42 (F := Ideal) x0 x1 x2 x3 x4 x5 x6 i = 1 := by
  rw [val_main_v42_apply, val_main_v37_apply, val_main_v41_apply, val_main_v40_apply, val_main_v39_apply, val_main_v35_apply,
    count_fold, val_main_v36_apply, val_main_c_3_apply, val_main_v38_apply, val_main_c_4_apply, val_main_call3_v1_apply,
    val_main_call3_v0_apply, val_main_cst_5_apply, val_main_cst_2_apply]
  simp only [val_main_v34_apply]
  exact Cert.EncoderSum.guarded_mean_eq_one (ι := Fin 8192) (by simp)
    (fun k => val_main_v31 (F := Ideal) x0 x1 x2 x3 x4 x5 x6 (idx_main_v35 i k)) _ _ Ideal.ofBits_zero_f32 (IdealRules.sign_bit.ideal_onePat .f32)

/-- An entry of the reference's feature table: the hyperbolic tangent of the third layer's sum over the rectified second
    layer's sum over the rectified first layer's sum, with the three bias vectors. -/
theorem feature_apply (n : Fin 8192) (l : Fin 64) :
    val_main_v14 (F := Ideal) x0 x1 x2 x3 x4 x5 x6 (ix2 n l)
      = Ideal.tanh ((∑ k : Fin 256, max ((∑ j : Fin 256, max ((∑ i : Fin 512, x0 (ix2 n i) * x1 (ix2 i j)) + x2 (ix1 j))
            (Ideal.ofBits .f32 0x00000000#32) * x3 (ix2 j k)) + x4 (ix1 k)) (Ideal.ofBits .f32 0x00000000#32) * x5 (ix2 k l))
          + x6 (ix1 l)) := by
  simp only [val_main_v14_apply, val_main_v13_apply, val_main_v10_apply, val_main_v12_apply, val_main_v11_apply, val_main_v9_apply,
    val_main_call1_v0_apply, val_main_call1_cst_apply, val_main_v8_apply, val_main_v5_apply, val_main_v7_apply, val_main_v6_apply,
    val_main_v4_apply, val_main_call0_v0_apply, val_main_call0_cst_apply, val_main_v3_apply, val_main_v0_apply, val_main_v2_apply,
    val_main_v1_apply, Ideal.hostUnary_tanh_def, Ideal.addf_def, Ideal.maximumf_def, Ideal.ofBits_def]
  refine congrArg Ideal.tanh (congrArg₂ (· + ·) (Finset.sum_congr rfl fun k _ => congrArg₂ (· * ·) (congrArg₂ max
    (congrArg₂ (· + ·) (Finset.sum_congr rfl fun j _ => congrArg₂ (· * ·) (congrArg₂ max
      (congrArg₂ (· + ·) (Finset.sum_congr rfl fun i _ => congrArg₂ (· * ·) (congrArg x0 ?_) (congrArg x1 ?_)) (congrArg x2 ?_)) rfl)
      (congrArg x3 ?_)) (congrArg x4 ?_)) rfl) (congrArg x5 ?_)) (congrArg x6 ?_))
  all_goals exact funext fun a => Fin.ext (by first | (match a with | ⟨0, _⟩ => rfl | ⟨1, _⟩ => rfl) | (match a with | ⟨0, _⟩ => rfl))

variable (x7 : (⟨S64x1, .f32⟩ : BufTy).Contents (Elt Ideal)) (x8 : (⟨S1, .f32⟩ : BufTy).Contents (Elt Ideal))

/-- THE RESULT at its one entry: over the 64 lanes, (zero plus the weighted column sum of the feature table) times the
    weight column, plus the bias. -/
theorem result_apply :
    val_main_v51 (F := Ideal) x0 x1 x2 x3 x4 x5 x6 x7 x8 (ix1 0)
      = (∑ l : Fin 64, (Ideal.ofBits .f32 0x00000000#32
            + ∑ n : Fin 8192, val_main_v14 (F := Ideal) x0 x1 x2 x3 x4 x5 x6 (ix2 n l) * val_main_v42 (F := Ideal) x0 x1 x2 x3 x4 x5 x6 (ix1 n)) * x7 (ix2 l 0))
          + x8 (ix1 0) := by
  rw [val_main_v51_apply, val_main_v50_apply, val_main_v48_apply, val_main_v49_apply]
  refine congrArg₂ (· + ·) (Finset.sum_congr rfl fun l _ => congrArg₂ (· * ·) ?_ ?_) ?_
  · rw [val_main_v47_apply, val_main_v46_apply, val_main_cst_6_apply]
    refine congrArg (_ + ·) (Finset.sum_congr rfl fun n _ => ?_)
    rw [val_main_v45_apply, val_main_v44_apply, val_main_v43_apply]
    refine congrArg₂ (· * ·) (congrArg (val_main_v14 (F := Ideal) x0 x1 x2 x3 x4 x5 x6) ?_) (congrArg (val_main_v42 (F := Ideal) x0 x1 x2 x3 x4 x5 x6) ?_)
    · exact funext fun a => Fin.ext (by match a with | ⟨0, _⟩ => rfl | ⟨1, _⟩ => rfl)
    · exact funext fun a => Fin.ext (by match a with | ⟨0, _⟩ => rfl)
  · exact congrArg x7 (funext fun a => Fin.ext (by match a with | ⟨0, _⟩ => rfl | ⟨1, _⟩ => rfl))
  · exact congrArg x8 (funext fun a => Fin.ext (by match a with | ⟨0, _⟩ => rfl))

end Cert.ReferenceIdeal.RefEntry

end
-- ==== Proof.CoreSum.lean ====
/-
  The law that joins the two programs' last steps. One program sums a feature table `q` over all 8192 rows, lane by
  lane over 64 lanes, and contracts the 64 sums with a weight column. The other keeps 128 lanes (the upper 64 meet
  weights that are zero), cuts the rows into four blocks of 2048, adds the blocks two by two on two cores, contracts
  each core's 128 sums with the padded weight column, and adds the two results. With every feature and every
  weight a real number the two are equal: a product with a zero weight vanishes, a sum over 8192 rows is the sum of
  its four blocks' sums, and multiplication distributes over the two halves.
-/
import proofs.«414129_j65481071402742_3_alg».proof.Proof.FlagCount
import Mathlib.Algebra.BigOperators.Fin
import Mathlib.Logic.Equiv.Fin.Basic

namespace Cert.EncoderSum

/-- A family over 128 lanes that vanishes from lane 64 on is summed by its first 64 lanes. -/
theorem sum_lanes {M : Type*} [AddCommMonoid M] (f : Fin 128 → M) (h0 : ∀ l : Fin 128, 64 ≤ l.val → f l = 0) :
    ∑ l, f l = ∑ l : Fin 64, f (Fin.castAdd 64 l) := by
  have hupper : ∑ l : Fin 64, f (Fin.natAdd 64 l) = 0 :=
    Finset.sum_eq_zero fun l _ => h0 (Fin.natAdd 64 l) (Nat.le_add_right 64 l.val)
  rw [show (∑ l : Fin 128, f l) = ∑ l : Fin (64 + 64), f l from rfl, Fin.sum_univ_add, hupper, add_zero]

/-- A sum over 8192 rows, as four blocks of 2048 rows: row `r` of block `p` is row `2048 p + r`. -/
theorem sum_rows {M : Type*} [AddCommMonoid M] (g : Fin 8192 → M) :
    ∑ n, g n = ∑ p : Fin 4, ∑ r : Fin 2048, g (finProdFinEquiv (p, r)) := by
  rw [← Fintype.sum_prod_type (f := fun x : Fin 4 × Fin 2048 => g (finProdFinEquiv x))]
  exact ((finProdFinEquiv (m := 4) (n := 2048)).sum_comp g).symm

/-- THE TWO CORES' RESULTS ADD UP TO THE WHOLE CONTRACTION. `q` is the feature table and `wh` the weight column, both
    real; `q0 … q3` are the four row blocks over 128 lanes, equal to `q` on the first 64; `whp` is the padded column;
    `w` is the per-row weight (one); `z` the sums' initial value (zero). -/
theorem cores_sum_eq (q : Fin 8192 → Fin 64 → EReal) (hq : ∀ n l, ∃ x : ℝ, q n l = x)
    (wh : Fin 64 → EReal) (hwh : ∀ l, ∃ x : ℝ, wh l = x)
    (q0 q1 q2 q3 : Fin 2048 → Fin 128 → EReal) (whp : Fin 128 → EReal)
    (h0 : ∀ r (l : Fin 64), q0 r (Fin.castAdd 64 l) = q (finProdFinEquiv ((0 : Fin 4), r)) l)
    (h1 : ∀ r (l : Fin 64), q1 r (Fin.castAdd 64 l) = q (finProdFinEquiv ((1 : Fin 4), r)) l)
    (h2 : ∀ r (l : Fin 64), q2 r (Fin.castAdd 64 l) = q (finProdFinEquiv ((2 : Fin 4), r)) l)
    (h3 : ∀ r (l : Fin 64), q3 r (Fin.castAdd 64 l) = q (finProdFinEquiv ((3 : Fin 4), r)) l)
    (hwp : ∀ l : Fin 64, whp (Fin.castAdd 64 l) = wh l) (hw0 : ∀ l : Fin 128, 64 ≤ l.val → whp l = 0)
    (w : Fin 8192 → EReal) (hw : ∀ n, w n = 1) (z : EReal) (hz : z = 0) (b : EReal) :
    ((∑ l, ((z + ∑ r, q0 r l) + ∑ r, q1 r l) * whp l) + (∑ l, ((z + ∑ r, q2 r l) + ∑ r, q3 r l) * whp l)) + b
      = (∑ l, (z + ∑ n, q n l * w n) * wh l) + b := by
  choose qr hqr using hq
  choose wr hwr using hwh
  congr 1
  rw [sum_lanes _ (fun l hl => by rw [hw0 l hl, mul_zero]), sum_lanes _ (fun l hl => by rw [hw0 l hl, mul_zero])]
  simp only [h0, h1, h2, h3, hwp, hqr, hwr, hw, hz, zero_add, mul_one]
  simp only [← coe_sum, ← EReal.coe_add, ← EReal.coe_mul]
  rw [EReal.coe_eq_coe_iff, ← Finset.sum_add_distrib]
  refine Finset.sum_congr rfl fun l _ => ?_
  rw [sum_rows (fun n => qr n l), Fin.sum_univ_four]
  ring

end Cert.EncoderSum
-- ==== Proof.Bridge.lean ====
/-
  The two programs compute one number. The kernel's result is the first core's number plus the second core's plus the
  bias; each core's number is the sum over 128 lanes of (zeros plus the column sums of its two feature blocks) times
  the padded weight column. The reference's result is the sum over 64 lanes of (zero plus the column sum of the whole
  feature table, each row times its mean weight) times the weight column, plus the bias. The feature blocks are the
  rows 2048 p .. 2048 p + 2047 of the feature table on lanes 0 to 63 (same three layers, the padded third layer
  reading the unpadded one there); the padded column is the weight column on lanes 0 to 63 and zero beyond; every
  mean weight is one; features are real (a hyperbolic tangent) and the weights are real by the precondition. The law
  that the two cores' sums add up to the whole contraction closes it.
-/
import proofs.«414129_j65481071402742_3_alg».proof.Proof.KernelBlocks
import proofs.«414129_j65481071402742_3_alg».proof.Proof.KernelPayload
import proofs.«414129_j65481071402742_3_alg».proof.Proof.RefEntry
import proofs.«414129_j65481071402742_3_alg».proof.Proof.CoreSum

set_option maxRecDepth 16384

noncomputable section

namespace Cert.Bridge

open Idealize.ShloMosaic Idealize.ShloMosaic.TcCoe Idealize.SL.Sem Idealize.ShloMosaic.ValueIdx
open Cert.KernelIdeal.Gen (t0_0 t0_1 t0_2 t0_3 iblk k0_pay1 k0_pay2 k0_pay3 k0_pay4)
open Cert.KernelIdeal.Points (featBlk coreAcc)
open Cert.KernelIdeal.Slabs (partials part0 part1)
open Cert.KernelIdeal.HostSide (total whPad padValue)

/-- The hyperbolic tangent of any extended real is a real number. -/
theorem tanh_real (x : EReal) : ∃ r : ℝ, Ideal.tanh x = (r : EReal) := by
  induction x using EReal.rec with
  | bot => exact ⟨-1, by simp⟩
  | top => exact ⟨1, by simp⟩
  | coe r => exact ⟨Real.tanh r, rfl⟩

instance : Subsingleton Cert.KernelIdeal.S_.Idx := ⟨fun a b => funext fun d => d.elim0⟩
instance : Subsingleton Cert.KernelIdeal.S1.Idx := ⟨fun a b => funext fun d => Fin.ext (by
  match d with
  | ⟨0, _⟩ => have ha : (a 0).val < 1 := (a 0).isLt; have hb : (b 0).val < 1 := (b 0).isLt; show (a 0).val = (b 0).val; omega)⟩
instance : Subsingleton Cert.KernelIdeal.S1x1.Idx := ⟨fun a b => funext fun d => Fin.ext (by
  match d with
  | ⟨0, _⟩ => have ha : (a 0).val < 1 := (a 0).isLt; have hb : (b 0).val < 1 := (b 0).isLt; show (a 0).val = (b 0).val; omega
  | ⟨1, _⟩ => have ha : (a 1).val < 1 := (a 1).isLt; have hb : (b 1).val < 1 := (b 1).isLt; show (a 1).val = (b 1).val; omega)⟩

/-- The kernel's last operations at the result's one entry: entry [0, 0] plus entry [8, 0] of the partial results, plus
    the bias. -/
theorem total_apply (P : (⟨Cert.KernelIdeal.S16x1, .f32⟩ : BufTy).Contents (Elt Ideal))
    (b : (⟨Cert.KernelIdeal.S1, .f32⟩ : BufTy).Contents (Elt Ideal)) :
    total P b (ix1 0) = (P (ix2 0 0) + P (ix2 8 0)) + b (ix1 0) := by
  unfold total
  rw [Cert.KernelIdeal.Payload.shapeCast_single _ _ (ix1 0) ix0]
  show (shapeCast Cert.KernelIdeal.S_ _ _ ix0 + shapeCast Cert.KernelIdeal.S_ _ _ ix0) + shapeCast Cert.KernelIdeal.S_ b _ ix0 = _
  rw [Cert.KernelIdeal.Payload.shapeCast_single _ _ ix0 (ix2 0 0), Cert.KernelIdeal.Payload.shapeCast_single _ _ ix0 (ix2 0 0),
    Cert.KernelIdeal.Payload.shapeCast_single b _ ix0 (ix1 0),
    extractStridedSlice_apply _ P _ (ix2 0 0) (ix2 0 0) (fun a => match a with | ⟨0, _⟩ => rfl | ⟨1, _⟩ => rfl),
    extractStridedSlice_apply _ P _ (ix2 0 0) (ix2 8 0) (fun a => match a with | ⟨0, _⟩ => rfl | ⟨1, _⟩ => rfl)]

variable (m : (ℓ : Loc Cert.KernelIdeal.nD Cert.KernelIdeal.τ Cert.KernelIdeal.sig) → Buf (Elt Ideal) ℓ)
  (c : Dev Cert.KernelIdeal.nD)

/-- A core's number as a sum over the 128 lanes: (zeros plus the column sums of its two feature blocks) times the padded
    weight column. -/
theorem core_apply (t' t : Fin Cert.KernelIdeal.cfg0.N) :
    k0_pay2 (coreAcc m c t' t) (iblk m c 7 t) (ix2 0 0)
      = ∑ l : Fin 128, ((Ideal.ofBits .f32 0x00000000#32 + ∑ r : Fin 2048, featBlk m c t' (ix2 r l))
            + ∑ r : Fin 2048, featBlk m c t (ix2 r l)) * whPad (m ((c : Thread Cert.KernelIdeal.nD Cert.KernelIdeal.τ).loc Cert.KernelIdeal.main_arg7)) (ix2 l 0) := by
  rw [Cert.KernelIdeal.Payload.slab_apply]
  refine Finset.sum_congr rfl fun l _ => congrArg₂ (· * ·) ?_ (Cert.KernelIdeal.Blocks.wh_blk m c t l)
  unfold coreAcc
  rw [Cert.KernelIdeal.Payload.acc_apply, Cert.KernelIdeal.Payload.acc_apply, Cert.KernelIdeal.Payload.zero_apply]

/-- A feature block's entry on lanes 0 to 63 is the reference's feature table's entry at row 2048 p + r. -/
theorem feature_eq (t : Fin Cert.KernelIdeal.cfg0.N) (r : Fin 2048) (l : Fin 64) :
    featBlk m c t (ix2 r (Fin.castAdd 64 l))
      = Cert.ReferenceIdeal.ReadCopy.val_main_v14 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))
          (ix2 (finProdFinEquiv ((⟨t.val, lt_of_lt_of_eq t.isLt Cert.KernelIdeal.Gen.N_0⟩ : Fin 4), r)) l) := by
  rw [Cert.ReferenceIdeal.RefEntry.feature_apply]
  refine (Cert.KernelIdeal.Payload.feature_apply (iblk m c 0 t) (iblk m c 1 t) (iblk m c 2 t) (iblk m c 3 t) (iblk m c 4 t)
    (iblk m c 5 t) (iblk m c 6 t) r (Fin.castAdd 64 l)).trans ?_
  simp only [Cert.KernelIdeal.Blocks.state_blk, Cert.KernelIdeal.Blocks.w1_blk, Cert.KernelIdeal.Blocks.b1_blk,
    Cert.KernelIdeal.Blocks.w2_blk, Cert.KernelIdeal.Blocks.b2_blk, Cert.KernelIdeal.Blocks.wq_blk, Cert.KernelIdeal.Blocks.bq_blk]

/-- THE RESULTS ARE EQUAL, given that the weight column's entries are real. -/
theorem value_eq (hreal : ∀ i : Cert.KernelIdeal.S64x1.Idx, ∃ r : ℝ, (m ((c : Thread Cert.KernelIdeal.nD Cert.KernelIdeal.τ).loc Cert.KernelIdeal.main_arg7)) i = (r : EReal)) :
    total (partials m c) (m ((c : Thread Cert.KernelIdeal.nD Cert.KernelIdeal.τ).loc Cert.KernelIdeal.main_arg8))
      = Cert.ReferenceIdeal.ReadCopy.val_main_v51 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  funext i
  obtain rfl : i = ix1 0 := Subsingleton.elim _ _
  rw [Cert.ReferenceIdeal.RefEntry.result_apply, total_apply]
  have hlow : partials m c (ix2 0 0) = part0 m c := if_pos (by decide)
  have hhigh : partials m c (ix2 8 0) = part1 m c := if_neg (by decide)
  rw [hlow, hhigh]
  unfold part0 part1
  rw [core_apply m c t0_0 t0_1, core_apply m c t0_2 t0_3]
  exact Cert.EncoderSum.cores_sum_eq
    (fun n l => Cert.ReferenceIdeal.ReadCopy.val_main_v14 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (ix2 n l))
    (fun n l => by rw [Cert.ReferenceIdeal.RefEntry.feature_apply]; exact tanh_real _)
    (fun l => (m ((c : Thread Cert.KernelIdeal.nD Cert.KernelIdeal.τ).loc Cert.KernelIdeal.main_arg7)) (ix2 l 0)) (fun l => hreal _)
    (fun r l => featBlk m c t0_0 (ix2 r l)) (fun r l => featBlk m c t0_1 (ix2 r l))
    (fun r l => featBlk m c t0_2 (ix2 r l)) (fun r l => featBlk m c t0_3 (ix2 r l))
    (fun l => whPad (m ((c : Thread Cert.KernelIdeal.nD Cert.KernelIdeal.τ).loc Cert.KernelIdeal.main_arg7)) (ix2 l 0))
    (fun r l => feature_eq m c t0_0 r l) (fun r l => feature_eq m c t0_1 r l)
    (fun r l => feature_eq m c t0_2 r l) (fun r l => feature_eq m c t0_3 r l)
    (fun l => Cert.KernelIdeal.Blocks.whPad_low _ l)
    (fun l hl => (Cert.KernelIdeal.Blocks.whPad_high _ l hl).trans Cert.KernelIdeal.Blocks.padValue_zero)
    (fun n => Cert.ReferenceIdeal.ReadCopy.val_main_v42 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (ix1 n))
    (fun n => Cert.ReferenceIdeal.RefEntry.weight_one _ _ _ _ _ _ _ _)
    (Ideal.ofBits .f32 0x00000000#32) Ideal.ofBits_zero_f32 ((m ((c : Thread Cert.KernelIdeal.nD Cert.KernelIdeal.τ).loc Cert.KernelIdeal.main_arg8)) (ix1 0))

end Cert.Bridge

end
-- ==== Proof.WeightsReal.lean ====
/-
  The final weight column holds real numbers. The precondition is a conjunction, over the nine arguments, of "every
  entry's absolute value is below the infinity word". Its clause for the weight column, read at one entry, says
  max(x, -x) < +inf; an extended real whose absolute value is below +inf is neither infinity, so it is a real number.
-/
import proofs.«414129_j65481071402742_3_alg».proof.Proof.Gen.Pre_finite_inputs
import Idealize.ShloMosaic.Lib.ReduceAll
import Idealize.ShloMosaic.Lib.ValueIdx
import Idealize.ShloMosaic.PureOps.Ideal.Laws

namespace Cert.Pre_finite_inputs.Finite

open Cert.Pre_finite_inputs Idealize.ShloMosaic

/-- The infinity word denotes +inf. -/
theorem inf_word : Ideal.ofBits .f32 0x7F800000#32 = ⊤ := by simp [Ideal.ofBits, Ideal.ieee]

/-- An extended real whose absolute value compares below +inf is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

instance : Subsingleton S_.Idx := ⟨fun a b => funext fun d => d.elim0⟩

/-- Under the precondition every entry of the weight column (the eighth argument) is a real number. -/
theorem column_real (a0 : FVec Ideal S8192x512 .f32) (a1 : FVec Ideal S512x256 .f32) (a2 : FVec Ideal S256 .f32)
    (a3 : FVec Ideal S256x256 .f32) (a4 : FVec Ideal S256 .f32) (a5 : FVec Ideal S256x64 .f32) (a6 : FVec Ideal S64 .f32)
    (a7 : FVec Ideal S64x1 .f32) (a8 : FVec Ideal S1 .f32)
    (h : fn (F := Ideal) a0 a1 a2 a3 a4 a5 a6 a7 a8 = fun _ => 1#1) (i : S64x1.Idx) : ∃ r : ℝ, a7 i = (r : EReal) := by
  have h0 := congrFun h ValueIdx.ix0
  dsimp only [fn, fn_part1, fn_part2] at h0
  obtain ⟨h38, -⟩ := IntOp.andi_eq_one.1 h0
  obtain ⟨-, h37⟩ := IntOp.andi_eq_one.1 h38
  have hi := Host.reduce_andi_all _ _ _ _ _ h37 i
  refine real_of_abs_lt_top (a7 i) ?_
  rw [← inf_word]
  exact hi

end Cert.Pre_finite_inputs.Finite
-- ==== Proof.lean ====
/-
  The certificate: a fused kernel against its plain reference, over the extended reals.

  The reference runs three linear layers (two rectified, the last through a hyperbolic tangent) on 8192 rows to get a
  feature table of 64 lanes, builds from it a table of pairwise similarities, thresholds it into flags, and weights each
  row by the mean of its flags' weights; it then sums the weighted rows lane by lane, contracts with a weight column and
  adds a bias. Every flag's weight is one, so a row's mean weight is the count of its flags, taken as a float, over the
  same count taken as an integer: it is one for every row whatever the flags are (and the guard returns one where the
  count is zero). The kernel therefore never forms the similarities: on each of two cores it adds up the feature blocks
  of two tiles of 2048 rows, over 128 lanes of which the upper 64 meet zero weights, contracts each core's sums with
  the zero-padded weight column, and the host adds the two numbers and the bias.

  The frames of the two kernel programs are the generated ones. The reference's run is read operation by operation.
  The kernel's value is read off its frame run: what each tile leaves in the accumulator, what the last tile of a core
  writes back, the array those write-backs leave, and the host operations around the region. The two values are
  equal because the blocks' features are the table's rows, sums over 8192 rows split into the four blocks, products
  with zero weights vanish, and multiplication distributes over the two cores' halves when the features (hyperbolic
  tangents) and the weights (finite by the precondition) are real numbers.
-/
import proofs.«414129_j65481071402742_3_alg».proof.Defs
import proofs.«414129_j65481071402742_3_alg».proof.Proof.Gen.Kernel
import proofs.«414129_j65481071402742_3_alg».proof.Proof.Gen.Kernel.Skeleton
import proofs.«414129_j65481071402742_3_alg».proof.Proof.Gen.Kernel.Launch
import proofs.«414129_j65481071402742_3_alg».proof.Proof.Gen.Kernel.Points
import proofs.«414129_j65481071402742_3_alg».proof.Proof.Gen.Kernel.Frame
import proofs.«414129_j65481071402742_3_alg».proof.Proof.Gen.KernelIdeal
import proofs.«414129_j65481071402742_3_alg».proof.Proof.Gen.KernelIdeal.Skeleton
import proofs.«414129_j65481071402742_3_alg».proof.Proof.Gen.KernelIdeal.Launch
import proofs.«414129_j65481071402742_3_alg».proof.Proof.Gen.KernelIdeal.Points
import proofs.«414129_j65481071402742_3_alg».proof.Proof.Gen.KernelIdeal.Frame
import proofs.«414129_j65481071402742_3_alg».proof.Proof.Gen.ReferenceIdeal
import proofs.«414129_j65481071402742_3_alg».proof.Proof.Gen.Pre_finite_inputs
import proofs.«414129_j65481071402742_3_alg».proof.Proof.Bridge
import proofs.«414129_j65481071402742_3_alg».proof.Proof.WeightsReal
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- The idealized kernel runs and keeps its arguments: its generated frame. -/
theorem frame_kernelIdeal : Cert.frame_KernelIdeal := fun m ρ _ => Cert.KernelIdeal.Gen.frame m ρ

/-- The reference runs and keeps its arguments: its run, read operation by operation, with the result dropped. -/
theorem frame_referenceIdeal : Cert.frame_ReferenceIdeal := fun m ρ _ =>
  (θ_run Cert.ReferenceIdeal.defs _ _).mono (fun _ h c => (h c).2) (Cert.ReferenceIdeal.RefLine.run (F := Ideal) m ρ)

/-- The ideal pass rewrote nothing: there is nothing to preserve. -/
theorem preserves : Cert.preserves_Kernel_KernelIdeal := trivial

/-- From memories that agree on the arguments, under the precondition, the idealized kernel and the reference both run
    and end with the same result: the two cores' numbers plus the bias. -/
theorem algebraic : Cert.algebraic_KernelIdeal_ReferenceIdeal := by
  intro m ρ m' ρ' hpre hagree
  refine ⟨fun c => Cert.KernelIdeal.HostSide.total (Cert.KernelIdeal.Slabs.partials m c)
      (m ((c.tc : Thread Cert.KernelIdeal.nD Cert.KernelIdeal.τ).loc Cert.KernelIdeal.main_arg8)),
    Cert.KernelIdeal.HostSide.run m ρ, ?_⟩
  refine (θ_run Cert.ReferenceIdeal.defs _ _).mono (fun _ h c => ⟨(h c).1.trans ?_, (h c).2⟩)
    (Cert.ReferenceIdeal.RefLine.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Bridge.value_eq m c fun i =>
    Cert.Pre_finite_inputs.Finite.column_real _ _ _ _ _ _ _ _ _ (hpre c) i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
